-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x21 : Shape := ⟨2, ![2000000, 21]⟩
abbrev S2000000 : Shape := ⟨1, ![2000000]⟩
abbrev S4096 : Shape := ⟨1, ![4096]⟩
abbrev S21 : Shape := ⟨1, ![21]⟩
abbrev S_ : Shape := ⟨0, ![]⟩

class Facts : Prop where
  bcast_S_S2000000x21 : S_.BroadcastsInDim S2000000x21 (![] : Fin 0 → Fin S2000000x21.rank)
  reducesTo_S2000000x21_S_d0_1 : S2000000x21.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2000000x21 .f32) (main_arg1 : IVec S2000000 32) (main_arg2 : FVec F S2000000 .f32) (main_arg3 : IVec S2000000 32) (main_arg4 : IVec S4096 32) (main_arg5 : FVec F S4096 .f32) (main_arg6 : IVec S4096 32) (main_arg7 : FVec F S4096 .f32) (main_arg8 : IVec S21 32) : IVec S_ 1 :=
  let main_v0 : FVec F S2000000x21 .f32 := Host.absf main_arg0
  let main_cst : FVec F S_ .f32 := constant S_ .f32 0x7F800000#32
  let main_v1 : FVec F S2000000x21 .f32 := broadcastInDim S2000000x21 ![] bcast_S_S2000000x21 main_cst
  let main_v2 : IVec S2000000x21 1 := cmpf .olt main_v0 main_v1
  let main_c : IVec S_ 1 := constantI S_ 1 1#1
  let main_v3 : IVec S_ 1 := (fun x v => Host.reduce IntOp.andi x v reducesTo_S2000000x21_S_d0_1 h_S_) main_v2 main_c
  let main_v4 : FVec F S2000000 .f32 := Host.absf main_arg2
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S4096 .f32 := Host.absf main_arg5
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg7
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2000000x21 : Shape := ⟨2, ![2000000, 21]⟩
abbrev S2000000 : Shape := ⟨1, ![2000000]⟩
abbrev S4096 : Shape := ⟨1, ![4096]⟩
abbrev S21 : Shape := ⟨1, ![21]⟩
abbrev S2x8x128 : Shape := ⟨3, ![2, 8, 128]⟩
abbrev S40960x21 : Shape := ⟨2, ![40960, 21]⟩
abbrev S40960 : Shape := ⟨1, ![40960]⟩
abbrev S1x8x128 : Shape := ⟨3, ![1, 8, 128]⟩
abbrev S1x1 : Shape := ⟨2, ![1, 1]⟩
abbrev S40960x1 : Shape := ⟨2, ![40960, 1]⟩
abbrev S1x40960 : Shape := ⟨2, ![1, 40960]⟩
abbrev S1 : Shape := ⟨1, ![1]⟩
abbrev S1x1x1 : Shape := ⟨3, ![1, 1, 1]⟩
abbrev S_ : Shape := ⟨0, ![]⟩
abbrev S4096x1 : Shape := ⟨2, ![4096, 1]⟩

abbrev nBuf : Space → Nat
  | .hbm => 46
  | .vmem => 9
  | .smem => 0
  | _ => 0

abbrev bufTy : (tb : Table) → Fin (tcTables nBuf tb) → BufTy
  | .hbm, ⟨0, _⟩ => ⟨S2000000x21, .f32⟩
  | .hbm, ⟨1, _⟩ => ⟨S2000000, .i32⟩
  | .hbm, ⟨2, _⟩ => ⟨S2000000, .f32⟩
  | .hbm, ⟨3, _⟩ => ⟨S2000000, .i32⟩
  | .hbm, ⟨4, _⟩ => ⟨S4096, .i32⟩
  | .hbm, ⟨5, _⟩ => ⟨S4096, .f32⟩
  | .hbm, ⟨6, _⟩ => ⟨S4096, .i32⟩
  | .hbm, ⟨7, _⟩ => ⟨S4096, .f32⟩
  | .hbm, ⟨8, _⟩ => ⟨S21, .i32⟩
  | .hbm, ⟨9, _⟩ => ⟨S2x8x128, .f32⟩
  | .hbm, ⟨10, _⟩ => ⟨S1x1x1, .f32⟩
  | .hbm, ⟨11, _⟩ => ⟨S_, .f32⟩
  | .hbm, ⟨12, _⟩ => ⟨S1x1x1, .f32⟩
  | .hbm, ⟨13, _⟩ => ⟨S_, .f32⟩
  | .hbm, ⟨14, _⟩ => ⟨S_, .f32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S40960x21, .f32⟩
  | .local _ .vmem, ⟨1, _⟩ => ⟨S40960x21, .f32⟩
  | .local _ .vmem, ⟨2, _⟩ => ⟨S40960, .i32⟩
  | .local _ .vmem, ⟨3, _⟩ => ⟨S40960, .i32⟩
  | .local _ .vmem, ⟨4, _⟩ => ⟨S40960, .f32⟩
  | .local _ .vmem, ⟨5, _⟩ => ⟨S40960, .f32⟩
  | .local _ .vmem, ⟨6, _⟩ => ⟨S1x8x128, .f32⟩
  | .local _ .vmem, ⟨7, _⟩ => ⟨S1x8x128, .f32⟩
  | .local _ .vmem, ⟨8, _⟩ => ⟨S1x1, .f32⟩
  | _, _ => ⟨S2000000x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c48_i32 : BitVec 32 := 48#32
  let v2 : BitVec 32 := Scalar.minsi v1 c48_i32
  let c0_i32 : BitVec 32 := 0#32
  let c0_i32_0 : BitVec 32 := 0#32
  ![v2.toNat, c0_i32.toNat]

def cc0_transform_1 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c48_i32 : BitVec 32 := 48#32
  let v2 : BitVec 32 := Scalar.minsi v1 c48_i32
  let c0_i32 : BitVec 32 := 0#32
  ![v2.toNat]

def cc0_transform_2 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c48_i32 : BitVec 32 := 48#32
  let v2 : BitVec 32 := Scalar.minsi v1 c48_i32
  let c0_i32 : BitVec 32 := 0#32
  ![v2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S40960x21 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S40960 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S40960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x8x128_S1x8x128_0_0_0 : ∀ a, (![0, 0, 0] : Fin 3 → Nat) a + S1x8x128.size a ≤ S1x8x128.size a
  h_S1x8x128 : 0 < S1x8x128.numel
  inb_S40960x21_S40960x1_0_0 : ∀ a, (![0, 0] : Fin 2 → Nat) a + S40960x1.size a ≤ S40960x21.size a
  h_S40960x1 : 0 < S40960x1.numel
  shapeCasts_S40960x1_S40960 : S40960x1.ShapeCasts S40960
  inb_S40960_S40960_0 : ∀ a, (![0] : Fin 1 → Nat) a + S40960.size a ≤ S40960.size a
  h_S40960 : 0 < S40960.numel
  iota_S1x40960_d1_w32 : S1x40960.Iotas .tc 32 [1]
  shapeCasts_S1x40960_S40960 : S1x40960.ShapeCasts S40960
  shapeCasts_S40960_S1x40960 : S40960.ShapeCasts S1x40960
  reduces_S1x40960_S1 : S1x40960.Reduces [1] S1
  shapeCasts_S1_S1x1 : S1.ShapeCasts S1x1
  inpos_S1x1_p0_0 : ∀ a, (![0, 0] : Fin 2 → Nat) a < S1x1.size a
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  slices_S21_S1_0 : S21.Slices ![0] S1
  shapeCasts_S1_S_ : S1.ShapeCasts S_
  bcast_S_S4096 : S_.BroadcastsInDim S4096 (![] : Fin 0 → Fin S4096.rank)
  bcast_S4096_S4096x1_0 : S4096.BroadcastsInDim S4096x1 (![0] : Fin 1 → Fin S4096x1.rank)
  reducesTo_S4096_S_d0 : S4096.ReducesTo [0] S_
  h_S_ : 0 < S_.numel
  gather_S21_S4096x1_S4096_n_0_n_n_0_1_1_wf : GatherDims.WF S21 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S40960x21.size a < S2000000x21.size a
  hwx0_0 : ∀ i : grid0.Coords, EltTy.bits .f32 = 32 ∨ (Rect.unit (s := S2000000x21) (fun a => cc0_transform_0 i a * S40960x21.size a) (fun a => (Pipeline.Clip.of (cc0_transform_0 i a) (S40960x21.size a) (S2000000x21.size a)).extent (S40960x21.size a)) fun a => Pipeline.Clip.inb (Pipeline.Clip.ok_of (hstart0_0 i a))).WholeWords (EltTy.packing .f32)
  hwxs0_0 : ∀ i : grid0.Coords, EltTy.bits .f32 = 32 ∨ (Rect.unit (s := S40960x21) (fun _ => 0) (fun a => (Pipeline.Clip.of (cc0_transform_0 i a) (S40960x21.size a) (S2000000x21.size a)).extent (S40960x21.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S40960.size a < S2000000.size a
  hwx0_1 : ∀ i : grid0.Coords, EltTy.bits .i32 = 32 ∨ (Rect.unit (s := S2000000) (fun a => cc0_transform_1 i a * S40960.size a) (fun a => (Pipeline.Clip.of (cc0_transform_1 i a) (S40960.size a) (S2000000.size a)).extent (S40960.size a)) fun a => Pipeline.Clip.inb (Pipeline.Clip.ok_of (hstart0_1 i a))).WholeWords (EltTy.packing .i32)
  hwxs0_1 : ∀ i : grid0.Coords, EltTy.bits .i32 = 32 ∨ (Rect.unit (s := S40960) (fun _ => 0) (fun a => (Pipeline.Clip.of (cc0_transform_1 i a) (S40960.size a) (S2000000.size a)).extent (S40960.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S40960.size a < S2000000.size a
  hwx0_2 : ∀ i : grid0.Coords, EltTy.bits .f32 = 32 ∨ (Rect.unit (s := S2000000) (fun a => cc0_transform_2 i a * S40960.size a) (fun a => (Pipeline.Clip.of (cc0_transform_2 i a) (S40960.size a) (S2000000.size a)).extent (S40960.size a)) fun a => Pipeline.Clip.inb (Pipeline.Clip.ok_of (hstart0_2 i a))).WholeWords (EltTy.packing .f32)
  hwxs0_2 : ∀ i : grid0.Coords, EltTy.bits .f32 = 32 ∨ (Rect.unit (s := S40960) (fun _ => 0) (fun a => (Pipeline.Clip.of (cc0_transform_2 i a) (S40960.size a) (S2000000.size a)).extent (S40960.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def gather_S21_S4096x1_S4096_n_0_n_n_0_1_1 : GatherDims S21 S4096x1 S4096 where
  offsetDims := []
  collapsedSliceDims := [0]
  operandBatchingDims := []
  startIndicesBatchingDims := []
  startIndexMap := [0]
  indexVectorDim := 1
  sliceSizes := ![1]
  wf := gather_S21_S4096x1_S4096_n_0_n_n_0_1_1_wf

abbrev win0_0 : Pipeline.Window sig grid0 :=
  Pipeline.Window.ofSpecClip (Memref.whole main_arg0) S40960x21.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S40960.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S40960.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v0) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000x21 : Shape := ⟨2, ![2000000, 21]⟩
abbrev S2000000 : Shape := ⟨1, ![2000000]⟩
abbrev S4096 : Shape := ⟨1, ![4096]⟩
abbrev S21 : Shape := ⟨1, ![21]⟩
abbrev S_ : Shape := ⟨0, ![]⟩
abbrev S1 : Shape := ⟨1, ![1]⟩
abbrev S2000000x1 : Shape := ⟨2, ![2000000, 1]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S2000000x21, .f32⟩
  | .hbm, ⟨1, _⟩ => ⟨S2000000, .i32⟩
  | .hbm, ⟨2, _⟩ => ⟨S2000000, .f32⟩
  | .hbm, ⟨3, _⟩ => ⟨S2000000, .i32⟩
  | .hbm, ⟨4, _⟩ => ⟨S4096, .i32⟩
  | .hbm, ⟨5, _⟩ => ⟨S4096, .f32⟩
  | .hbm, ⟨6, _⟩ => ⟨S4096, .i32⟩
  | .hbm, ⟨7, _⟩ => ⟨S4096, .f32⟩
  | .hbm, ⟨8, _⟩ => ⟨S21, .i32⟩
  | .hbm, ⟨9, _⟩ => ⟨S_, .i32⟩
  | .hbm, ⟨10, _⟩ => ⟨S2000000, .i32⟩
  | .hbm, ⟨11, _⟩ => ⟨S2000000, .i1⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S2000000, .i1⟩
  | .hbm, ⟨17, _⟩ => ⟨S2000000, .i1⟩
  | .hbm, ⟨18, _⟩ => ⟨S2000000x1, .f32⟩
  | .hbm, ⟨19, _⟩ => ⟨S2000000, .f32⟩
  | .hbm, ⟨20, _⟩ => ⟨S2000000, .f32⟩
  | .hbm, ⟨21, _⟩ => ⟨S2000000, .f32⟩
  | .hbm, ⟨22, _⟩ => ⟨S_, .f32⟩
  | .hbm, ⟨23, _⟩ => ⟨S_, .f32⟩
  | .hbm, ⟨24, _⟩ => ⟨S2000000, .f32⟩
  | .hbm, ⟨25, _⟩ => ⟨S2000000, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S2000000x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_call1_v0 : Ref sig .tc := ⟨.hbm, 44, rfl⟩
abbrev main_call1_v1 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  slices_S21_S1_0 : S21.Slices ![0] S1
  shapeCasts_S1_S_ : S1.ShapeCasts S_
  slices_S2000000x21_S2000000x1_0_0 : S2000000x21.Slices ![0, 0] S2000000x1
  shapeCasts_S2000000x1_S2000000 : S2000000x1.ShapeCasts S2000000
  reducesTo_S2000000_S_d0 : S2000000.ReducesTo [0] S_
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  reducesTo_S4096_S_d0 : S4096.ReducesTo [0] S_
  gather_S21_S4096x1_S4096_n_0_n_n_0_1_1_wf : GatherDims.WF S21 S4096x1 S4096 [] [0] [] [0] [] 1 ![1]

variable [Facts₀]

def gather_S21_S4096x1_S4096_n_0_n_n_0_1_1 : GatherDims S21 S4096x1 S4096 where
  offsetDims := []
  collapsedSliceDims := [0]
  operandBatchingDims := []
  startIndicesBatchingDims := []
  startIndexMap := [0]
  indexVectorDim := 1
  sliceSizes := ![1]
  wf := gather_S21_S4096x1_S4096_n_0_n_n_0_1_1_wf

class Facts : Prop extends Facts₀ where

variable [Facts]
-- ==== Proof.BitsBodyRuns.lean ====
/-
  The kernel body, run once on arbitrary whole staging buffers, in each of its two control cases.

  A grid point (c, i) of the 2 × 25 grid either opens a row of 25 points (i = 0) or continues one. At an opening
  point the body first clears the one-word running total and the output tile, then goes on as at any other point:
  it reads column 0 of the probability block, the label block and the weight block, forms the masked products,
  adds their sum to the running total, stores the total back and stores its broadcast over the output tile. The
  three input buffers are only read. What each case leaves in the running total and in the output tile is recorded
  as the list of its stores, last first.
-/
import proofs.«424507_j10058813407513_4_alg».proof.Proof.Gen.Kernel.Frame
import proofs.«424507_j10058813407513_4_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The point opens a row of the grid: its second coordinate is zero (the body's own test, as it spells it). -/
abbrev opensRow (i : grid0.Coords) : Prop :=
  (Scalar.cmpi .ne (Scalar.extui (Scalar.cmpi .eq (BitVec.ofNat 32 (i 1).val) 0#32)) 0#32) = 1#1

/-- Over the 50 points in row-major order, those are the points 0 and 25. -/
theorem opensRow_iff : ∀ t : Fin cfg0.N, opensRow (grid0.coords t) ↔ t.val % 25 = 0 :=
  (by decide +kernel : ∀ t : Fin grid0.N, opensRow (grid0.coords t) ↔ t.val % 25 = 0)

/-- The running total's buffer. -/
abbrev totM : Memref sig .tc .vmem S1x1 .f32 := Memref.whole cc0_scratch0

/-- What the region may use besides its windows: the running total's buffer at some contents, and the generator
    register at some state. -/
theorem PhiA_eq (c : Dev nD) :
    (Pipeline.ΦA spec0 c : sProp 𝕄)
      = iprop(iprop((∃ d, owns (c : Thread nD τ) totM fullShare d)) ∗ (∃ r, prngReg c r)) := by
  unfold Pipeline.ΦA; rw [scopedRest0_eq]; simp only [totM, owns_whole]; try rfl

set_option maxHeartbeats 1000000 in
/-- A point that continues a row: the running total arrives at `xs`, the output tile at anything. -/
noncomputable def runNext (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : ¬opensRow i)
    (x0 : Vec F S40960x21 .f32) (x1 : Vec F S40960 .i32) (x2 : Vec F S40960 .f32) (xs : Vec F S1x1 .f32) :
    Σ' (L5 : List (View.Piece (Elt F) S1x8x128 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d5, %f5, -, H5⟩, ⟨%f6, %hf6, H6⟩, Hk⟩
    obtain rfl := harg2.eq_unread hf0; obtain rfl := harg3.eq_unread hf1; obtain rfl := harg4.eq_unread hf2
    obtain rfl := harg6.eq_unread hf6
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    iexists _; iexact H6

set_option maxHeartbeats 1000000 in
/-- A point that opens a row: the running total and the output tile arrive at anything and are cleared first. -/
noncomputable def runOpen (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : opensRow i)
    (x0 : Vec F S40960x21 .f32) (x1 : Vec F S40960 .i32) (x2 : Vec F S40960 .f32) :
    Σ' (L5 : List (View.Piece (Elt F) S1x8x128 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    iexists _; iexact H6

/-! ## What each case leaves, read back -/

/-- One buffer of the output window and the running total's, through which contents are stated (which buffer does
    not matter once the stores cover it). -/
abbrev VO : View sig .tc .vmem S1x8x128 .f32 := (Memref.whole cc0_stg3_0 : Memref sig .tc .vmem S1x8x128 .f32).view
abbrev VT : View sig .tc .vmem S1x1 .f32 := totM.view

/-- In either case the stores into the output tile cover it, and so do the stores into the running total. -/
theorem coverO_next (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : ¬opensRow i)
    (x0 : Vec F S40960x21 .f32) (x1 : Vec F S40960 .i32) (x2 : Vec F S40960 .f32) (xs : Vec F S1x1 .f32) (y : S1x8x128.Idx) :
    ∃ pc ∈ (runNext c i arg2 harg2 arg3 harg3 arg4 harg4 arg5 harg5 arg6 harg6 hc x0 x1 x2 xs).1, y ∈ pc.1.set :=
  View.cover_of_tiledL (runNext c i arg2 harg2 arg3 harg3 arg4 harg4 arg5 harg5 arg6 harg6 hc x0 x1 x2 xs).1 S1x8x128.size (by sl_kernel_rfl) y
theorem coverT_next (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : ¬opensRow i)
    (x0 : Vec F S40960x21 .f32) (x1 : Vec F S40960 .i32) (x2 : Vec F S40960 .f32) (xs : Vec F S1x1 .f32) (y : S1x1.Idx) :
    ∃ pc ∈ (runNext c i arg2 harg2 arg3 harg3 arg4 harg4 arg5 harg5 arg6 harg6 hc x0 x1 x2 xs).2.1, y ∈ pc.1.set :=
  View.cover_of_tiledL (runNext c i arg2 harg2 arg3 harg3 arg4 harg4 arg5 harg5 arg6 harg6 hc x0 x1 x2 xs).2.1 S1x1.size (by sl_kernel_rfl) y
theorem coverO_open (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : opensRow i)
    (x0 : Vec F S40960x21 .f32) (x1 : Vec F S40960 .i32) (x2 : Vec F S40960 .f32) (y : S1x8x128.Idx) :
    ∃ pc ∈ (runOpen c i arg2 harg2 arg3 harg3 arg4 harg4 arg5 harg5 arg6 harg6 hc x0 x1 x2).1, y ∈ pc.1.set :=
  View.cover_of_tiledL (runOpen c i arg2 harg2 arg3 harg3 arg4 harg4 arg5 harg5 arg6 harg6 hc x0 x1 x2).1 S1x8x128.size (by sl_kernel_rfl) y
theorem coverT_open (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : opensRow i)
    (x0 : Vec F S40960x21 .f32) (x1 : Vec F S40960 .i32) (x2 : Vec F S40960 .f32) (y : S1x1.Idx) :
    ∃ pc ∈ (runOpen c i arg2 harg2 arg3 harg3 arg4 harg4 arg5 harg5 arg6 harg6 hc x0 x1 x2).2.1, y ∈ pc.1.set :=
  View.cover_of_tiledL (runOpen c i arg2 harg2 arg3 harg3 arg4 harg4 arg5 harg5 arg6 harg6 hc x0 x1 x2).2.1 S1x1.size (by sl_kernel_rfl) y

end Cert.Kernel.Body

end
-- ==== Proof.BitsPayCongr.lean ====
/-
  What one grid step adds to the running total depends on its three input blocks only through the lanes the row
  test keeps: lane `r` of step `t` is row `t · 40960 + r`, kept only when that row number is below 2,000,000,
  and on every other lane both selects take their constant branch whatever the block holds there.
-/
import proofs.«424507_j10058813407513_4_alg».proof.Proof.Gen.Kernel.Skeleton
import Idealize.ShloMosaic.Lib.ValueIdx
import Idealize.ShloMosaic.Lib.Pipeline.Value

noncomputable section

namespace Cert.Kernel.Payload

open Cert.Kernel Cert.Kernel.Gen Idealize.ShloMosaic Idealize.ShloMosaic.ValueIdx

variable {F : FTy → Type} [FloatOps F]

/-! ## Words -/

/-- A one-bit word made from a truth value is `1` exactly when the value is true. -/
theorem ofBool_eq_one (b : Bool) : BitVec.ofBool b = 1#1 ↔ b = true := by cases b <;> decide

/-- The conjunction of two one-bit words is `1` exactly when both are. -/
theorem and_eq_one : ∀ a b : BitVec 1, a &&& b = 1#1 ↔ (b = 1#1 ∧ a = 1#1) := by decide

/-- The grid has fifty points. -/
theorem N_eq : grid0.N = 50 := by decide

/-- The first row of step `t`'s block, as the kernel computes it in 32-bit words from the two grid coordinates:
    `(c₀ · 25 + c₁) · 40960 = t · 40960`, the grid being 2 × 25 walked in row-major order. Fifty closed cases. -/
theorem rowBase_eq : ∀ t : Fin grid0.N,
    Scalar.muli (Scalar.addi (Scalar.muli (BitVec.ofNat 32 ((grid0.coords t) 0).val) 25#32)
      (BitVec.ofNat 32 ((grid0.coords t) 1).val)) 40960#32 = BitVec.ofNat 32 (t.val * 40960) := by
  decide +kernel

/-- A number below `2³¹`, as a 32-bit word, is signed-less-than 2,000,000 exactly when it is less than 2,000,000. -/
theorem slt_two_million (n : ℕ) (hn : n < 2048000) :
    IntOp.cmpi .slt (BitVec.ofNat 32 n) 2000000#32 = 1#1 ↔ n < 2000000 := by
  show BitVec.ofBool ((BitVec.ofNat 32 n).slt 2000000#32) = 1#1 ↔ _
  rw [ofBool_eq_one]
  show decide ((BitVec.ofNat 32 n).toInt < (2000000#32 : BitVec 32).toInt) = true ↔ _
  have hmod : n % 2 ^ 32 = n := Nat.mod_eq_of_lt (by omega)
  have e1 : (BitVec.ofNat 32 n).toInt = (n : Int) := by
    rw [BitVec.toInt_eq_toNat_of_lt (by rw [BitVec.toNat_ofNat, hmod]; omega), BitVec.toNat_ofNat, hmod]
  have e2 : (2000000#32 : BitVec 32).toInt = 2000000 := by decide
  rw [decide_eq_true_iff, e1, e2]
  omega

/-! ## The lane mask -/

/-- The row test of the kernel's mask: lane `r`'s row number, the block's first row plus `r`, signed-compared with
    2,000,000. -/
def rowTest (i : grid0.Coords) : IVec S40960 1 :=
  cmpi .slt
    (addi (broadcast S40960 (Scalar.muli (Scalar.addi (Scalar.muli (BitVec.ofNat 32 (i 0).val) 25#32) (BitVec.ofNat 32 (i 1).val)) 40960#32))
      (shapeCast S40960 (iota .tc S1x40960 32 [1] iota_S1x40960_d1_w32) shapeCasts_S1x40960_S40960))
    (broadcast S40960 2000000#32)

/-- The lane numbers `0 ‥ 40959`, read at lane `r`. -/
theorem lanes_apply (r : Fin 40960) :
    shapeCast S40960 (iota .tc S1x40960 32 [1] iota_S1x40960_d1_w32) shapeCasts_S1x40960_S40960 (ix1 r) = BitVec.ofNat 32 r.val := by
  refine (shapeCast_apply _ shapeCasts_S1x40960_S40960 (ix1 r) (ix2 (0 : Fin 1) r) ?_).trans ?_
  · rw [Shape.rowMajor_val_two, Shape.rowMajor_val_one]
    show (0 : ℕ) * 40960 + r.val = r.val
    omega
  · exact iota_single_apply .tc S1x40960 32 1 iota_S1x40960_d1_w32 (ix2 (0 : Fin 1) r)

/-- At lane `r` of step `t` the row test is on exactly when row `t · 40960 + r` is below 2,000,000: the sum stays
    below `50 · 40960 < 2³¹`, so neither the 32-bit addition nor the signed reading changes it. -/
theorem rowTest_apply (t : Fin grid0.N) (r : Fin 40960) :
    rowTest (grid0.coords t) (ix1 r) = 1#1 ↔ t.val * 40960 + r.val < 2000000 := by
  show IntOp.cmpi .slt (IntOp.addi (Scalar.muli (Scalar.addi (Scalar.muli (BitVec.ofNat 32 ((grid0.coords t) 0).val) 25#32)
      (BitVec.ofNat 32 ((grid0.coords t) 1).val)) 40960#32)
      (shapeCast S40960 (iota .tc S1x40960 32 [1] iota_S1x40960_d1_w32) shapeCasts_S1x40960_S40960 (ix1 r))) 2000000#32 = 1#1 ↔ _
  rw [rowBase_eq t, lanes_apply r]
  have ht : t.val < 50 := lt_of_lt_of_eq t.isLt N_eq
  have hr := r.isLt
  rw [show IntOp.addi (BitVec.ofNat 32 (t.val * 40960)) (BitVec.ofNat 32 r.val) = BitVec.ofNat 32 (t.val * 40960 + r.val)
    from (BitVec.ofNat_add _ _).symm]
  exact slt_two_million _ (by omega)

/-- The kernel's lane mask: the label is zero and the row is inside the array. -/
def laneMask (i : grid0.Coords) (v7 : IVec S40960 32) : IVec S40960 1 :=
  andi (cmpi .eq v7 (broadcast S40960 0#32)) (rowTest i)

/-- The mask at lane `r` of step `t`. -/
theorem laneMask_apply (t : Fin grid0.N) (v7 : IVec S40960 32) (r : Fin 40960) :
    laneMask (grid0.coords t) v7 (ix1 r) = 1#1 ↔ (t.val * 40960 + r.val < 2000000 ∧ v7 (ix1 r) = 0#32) := by
  show BitVec.ofBool (v7 (ix1 r) == 0#32) &&& rowTest (grid0.coords t) (ix1 r) = 1#1 ↔ _
  rw [and_eq_one, rowTest_apply, ofBool_eq_one, beq_iff_eq]

/-- A select under the mask against a constant, at lane `r` of step `t`: the vector's lane where the mask is on, the
    constant elsewhere. -/
theorem select_laneMask_apply {α : Type} (t : Fin grid0.N) (v7 : IVec S40960 32) (a : S40960.Idx → α) (c : α) (r : Fin 40960) :
    select (laneMask (grid0.coords t) v7) a (broadcast S40960 c) (ix1 r)
      = if t.val * 40960 + r.val < 2000000 ∧ v7 (ix1 r) = 0#32 then a (ix1 r) else c := by
  show (if laneMask (grid0.coords t) v7 (ix1 r) = 1#1 then a (ix1 r) else c) = _
  exact if_congr (laneMask_apply t v7 r) rfl rfl

/-- Such a select reads the labels and the vector only on the rows below 2,000,000. -/
theorem select_laneMask_congr {α : Type} (t : Fin grid0.N) (v7 v7' : IVec S40960 32) (a a' : S40960.Idx → α) (c : α)
    (h : ∀ r : Fin 40960, t.val * 40960 + r.val < 2000000 → v7 (ix1 r) = v7' (ix1 r) ∧ a (ix1 r) = a' (ix1 r)) :
    select (laneMask (grid0.coords t) v7) a (broadcast S40960 c) = select (laneMask (grid0.coords t) v7') a' (broadcast S40960 c) := by
  funext j
  obtain ⟨r, rfl⟩ : ∃ r : Fin 40960, j = ix1 r := ⟨j 0, eq_ix1 j⟩
  rw [select_laneMask_apply, select_laneMask_apply]
  by_cases hr : t.val * 40960 + r.val < 2000000
  · obtain ⟨h7, ha⟩ := h r hr
    rw [h7, ha]
  · rw [if_neg (fun hh => hr hh.1), if_neg (fun hh => hr hh.1)]

/-- The probability block's one column as a vector of lanes, at lane `r`. -/
theorem col0_apply {α : Type} (v5 : S40960x1.Idx → α) (r : Fin 40960) :
    shapeCast S40960 v5 shapeCasts_S40960x1_S40960 (ix1 r) = v5 (ix2 r (0 : Fin 1)) := by
  refine shapeCast_apply v5 shapeCasts_S40960x1_S40960 (ix1 r) (ix2 r (0 : Fin 1)) ?_
  rw [Shape.rowMajor_val_two, Shape.rowMajor_val_one]
  show r.val * 1 + (0 : ℕ) = r.val
  omega

/-! ## The step's arithmetic in two parts -/

/-- What the step does with its 40,960 lane products: sums them (a lane reduction from zero) and adds the sum to the old
    total. -/
def stepTotal (v25 : FVec F S1x1 .f32) (x : FVec F S40960 .f32) : FVec F S1x1 .f32 :=
  addf v25 (broadcast S1x1 (extractAt ![0, 0] (shapeCast S1x1
    (multiReduction .add [1] S1 (shapeCast S1x40960 x shapeCasts_S40960_S1x40960) 0x00000000#32 reduces_S1x40960_S1 (.inl rfl) rfl)
    shapeCasts_S1_S1x1) inpos_S1x1_p0_0))

/-- The step's lane products: the masked weight (zero off the mask) times the log of the masked probability (one off the
    mask). -/
def laneTerms (i : grid0.Coords) (v5 : Vec F S40960x1 .f32) (v7 : Vec F S40960 .i32) (v8 : Vec F S40960 .f32) : FVec F S40960 .f32 :=
  mulf (select (laneMask i v7) v8 (broadcast S40960 (Scalar.ofBits .f32 0x00000000#32)))
    (log (select (laneMask i v7) (shapeCast S40960 v5 shapeCasts_S40960x1_S40960) (broadcast S40960 (Scalar.ofBits .f32 0x3F800000#32))))

/-- The printed arithmetic is these two parts. -/
theorem k0_pay3_eq (i : grid0.Coords) (v5 : Vec F S40960x1 .f32) (v7 : Vec F S40960 .i32) (v8 : Vec F S40960 .f32) (v25 : Vec F S1x1 .f32) :
    k0_pay3 i v5 v7 v8 v25 = stepTotal v25 (laneTerms i v5 v7 v8) := rfl

/-- Two triples of input blocks that agree on the rows below 2,000,000 give the step the same new total. -/
theorem pay3_congr (t : Fin grid0.N) (v5 v5' : Vec F S40960x1 .f32) (v7 v7' : Vec F S40960 .i32)
    (v8 v8' : Vec F S40960 .f32) (v25 : Vec F S1x1 .f32)
    (h : ∀ r : Fin 40960, t.val * 40960 + r.val < 2000000 →
      v5 (ix2 r (0 : Fin 1)) = v5' (ix2 r (0 : Fin 1)) ∧ v7 (ix1 r) = v7' (ix1 r) ∧ v8 (ix1 r) = v8' (ix1 r)) :
    k0_pay3 (grid0.coords t) v5 v7 v8 v25 = k0_pay3 (grid0.coords t) v5' v7' v8' v25 := by
  rw [k0_pay3_eq, k0_pay3_eq]
  unfold laneTerms
  rw [select_laneMask_congr t v7 v7' v8 v8' _ (fun r hr => ⟨(h r hr).2.1, (h r hr).2.2⟩),
    select_laneMask_congr t v7 v7' (shapeCast S40960 v5 shapeCasts_S40960x1_S40960) (shapeCast S40960 v5' shapeCasts_S40960x1_S40960) _
      (fun r hr => ⟨(h r hr).2.1, by rw [col0_apply, col0_apply]; exact (h r hr).1⟩)]

end Cert.Kernel.Payload

end
-- ==== Proof.BitsBodyData.lean ====
/-
  The proof data of the one pipeline, the body's obligation at every grid point, and the run of @main.

  Step `t` of the 50 reads block `min t 48` of each of the three inputs. Blocks 0 ‥ 47 lie inside the arrays;
  block 48 holds the last 33,920 rows and overhangs by 7,040, and step 49 looks at block 48 again. Past the
  array's end a staging buffer holds words nothing names, so what a buffer holds is the block on its leading rows
  and an unknown filler `d` below them. The body never lets the filler through: a lane is kept only if its row
  number `t · 40960 + r` is below 2,000,000, and every such lane lies on the block's leading rows. So the new
  running total is the same function of the arrays whatever the filler was, and it can be named once and for all
  (`totAt`), by recursion on the step: the total restarts from zero at steps 0 and 25 and otherwise continues
  from what the step before left. The output tile after step `t` is that total broadcast (`outAt`).
-/
import proofs.«424507_j10058813407513_4_alg».proof.Proof.BitsBodyRuns
import proofs.«424507_j10058813407513_4_alg».proof.Proof.BitsPayCongr

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Kernel.Payload Idealize.ShloMosaic.ValueIdx

variable (m : (ℓ : Loc nD τ sig) → Buf (Elt F) ℓ) (ρ : Dev nD → PrngReg)

/-! ## What each case's stores leave -/

theorem zero2 : (![0, 0] : Fin 2 → Nat) = fun _ => 0 := funext fun a => by fin_cases a <;> rfl
theorem zero1 : (![0] : Fin 1 → Nat) = fun _ => 0 := funext fun a => by fin_cases a <;> rfl
theorem zero3 : (![0, 0, 0] : Fin 3 → Nat) = fun _ => 0 := funext fun a => by fin_cases a <;> rfl

/-- The body's load of the probability block takes its column 0. -/
abbrev col0 (x0 : Vec F S40960x21 .f32) : Vec F S40960x1 .f32 :=
  View.ld x0 (Rect.unit (s := S40960x21) ![0, 0] S40960x1.size inb_S40960x21_S40960x1_0_0)

theorem col0_at (x0 : Vec F S40960x21 .f32) (r : Fin 40960) : col0 x0 (ix2 r (0 : Fin 1)) = x0 (ix2 r (0 : Fin 21)) := by
  show x0 _ = x0 _
  refine congrArg x0 (funext fun a => Fin.ext ?_)
  match a with
  | ⟨0, _⟩ => show (0 : ℕ) + 1 * r.val = r.val; omega
  | ⟨1, _⟩ => show (0 : ℕ) + 1 * 0 = 0; omega

/-- A continuing point leaves the running total at the old total plus the step's sum, -/
theorem tot_next (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : ¬opensRow i)
    (x0 : Vec F S40960x21 .f32) (x1 : Vec F S40960 .i32) (x2 : Vec F S40960 .f32) (xs : Vec F S1x1 .f32) :
    VT.read (Elt F) (VT.writes (Elt F) VT.junk (runNext c i arg2 harg2 arg3 harg3 arg4 harg4 arg5 harg5 arg6 harg6 hc x0 x1 x2 xs).2.1) = k0_pay4 i (col0 x0) x1 x2 xs := by
  rw [View.read_writes_eq_canon _ _ _ (coverT_next c i arg2 harg2 arg3 harg3 arg4 harg4 arg5 harg5 arg6 harg6 hc x0 x1 x2 xs)]
  unfold runNext; dsimp only; sl_unfold_words
  rw [View.canon_unit_zero (S := S1x1) zero2]
  simp only [View.readAt_eq_ld, harg2.read_unread, harg3.read_unread, harg4.read_unread, harg6.read_unread,
    View.ld_unit_zero (S := S40960) zero1, View.ld_unit_zero (S := S1x1) zero2]

/-- and the output tile at that total broadcast. -/
theorem out_next (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : ¬opensRow i)
    (x0 : Vec F S40960x21 .f32) (x1 : Vec F S40960 .i32) (x2 : Vec F S40960 .f32) (xs : Vec F S1x1 .f32) :
    VO.read (Elt F) (VO.writes (Elt F) VO.junk (runNext c i arg2 harg2 arg3 harg3 arg4 harg4 arg5 harg5 arg6 harg6 hc x0 x1 x2 xs).1) = k0_pay5 i (col0 x0) x1 x2 xs := by
  rw [View.read_writes_eq_canon _ _ _ (coverO_next c i arg2 harg2 arg3 harg3 arg4 harg4 arg5 harg5 arg6 harg6 hc x0 x1 x2 xs)]
  unfold runNext; dsimp only; sl_unfold_words
  rw [View.canon_unit_zero (S := S1x8x128) zero3]
  simp only [View.readAt_eq_ld, harg2.read_unread, harg3.read_unread, harg4.read_unread, harg6.read_unread,
    View.ld_unit_zero (S := S40960) zero1, View.ld_unit_zero (S := S1x1) zero2]

/-- An opening point clears the total first, so it leaves the step's sum added to zero, -/
theorem tot_open (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : opensRow i)
    (x0 : Vec F S40960x21 .f32) (x1 : Vec F S40960 .i32) (x2 : Vec F S40960 .f32) :
    VT.read (Elt F) (VT.writes (Elt F) VT.junk (runOpen c i arg2 harg2 arg3 harg3 arg4 harg4 arg5 harg5 arg6 harg6 hc x0 x1 x2).2.1) = k0_pay4 i (col0 x0) x1 x2 k0_pay1 := by
  rw [View.read_writes_eq_canon _ _ _ (coverT_open c i arg2 harg2 arg3 harg3 arg4 harg4 arg5 harg5 arg6 harg6 hc x0 x1 x2)]
  unfold runOpen; dsimp only; sl_unfold_words
  rw [View.canon_cons_unit_zero (S := S1x1) zero2]
  simp only [View.readAt_eq_ld, harg2.read_unread, harg3.read_unread, harg4.read_unread,
    View.ld_unit_zero (S := S40960) zero1, View.readCov_unit_zero (S := S1x1) _ zero2]

/-- and the output tile, cleared and then stored whole, at that total broadcast. -/
theorem out_open (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : opensRow i)
    (x0 : Vec F S40960x21 .f32) (x1 : Vec F S40960 .i32) (x2 : Vec F S40960 .f32) :
    VO.read (Elt F) (VO.writes (Elt F) VO.junk (runOpen c i arg2 harg2 arg3 harg3 arg4 harg4 arg5 harg5 arg6 harg6 hc x0 x1 x2).1) = k0_pay5 i (col0 x0) x1 x2 k0_pay1 := by
  rw [View.read_writes_eq_canon _ _ _ (coverO_open c i arg2 harg2 arg3 harg3 arg4 harg4 arg5 harg5 arg6 harg6 hc x0 x1 x2)]
  unfold runOpen; dsimp only; sl_unfold_words
  rw [View.canon_cons_unit_zero (S := S1x8x128) zero3]
  simp only [View.readAt_eq_ld, harg2.read_unread, harg3.read_unread, harg4.read_unread,
    View.ld_unit_zero (S := S40960) zero1, View.readCov_unit_zero (S := S1x1) _ zero2]

/-! ## The blocks, the running total and the output tile, step by step -/

/-- The three input blocks at step `t` with a fixed filler (zero) below the rows inside the array. -/
def blk0 (c : Dev nD) (t : Fin cfg0.N) : Vec F S40960x21 .f32 :=
  win0_0.fill (grid0.coords t) (fun _ => Scalar.ofBits .f32 0#32) (iblk m c 0 t)
def blk1 (c : Dev nD) (t : Fin cfg0.N) : Vec F S40960 .i32 :=
  win0_1.fill (grid0.coords t) (fun _ => (0#32 : BitVec 32)) (iblk m c 1 t)
def blk2 (c : Dev nD) (t : Fin cfg0.N) : Vec F S40960 .f32 :=
  win0_2.fill (grid0.coords t) (fun _ => Scalar.ofBits .f32 0#32) (iblk m c 2 t)

/-- The running total after step `n`. -/
def totAt (c : Dev nD) : (n : ℕ) → n < cfg0.N → Vec F S1x1 .f32
  | 0, hn => k0_pay4 (grid0.coords ⟨0, hn⟩) (col0 (blk0 m c ⟨0, hn⟩)) (blk1 m c ⟨0, hn⟩) (blk2 m c ⟨0, hn⟩) k0_pay1
  | n + 1, hn => k0_pay4 (grid0.coords ⟨n + 1, hn⟩) (col0 (blk0 m c ⟨n + 1, hn⟩)) (blk1 m c ⟨n + 1, hn⟩) (blk2 m c ⟨n + 1, hn⟩)
      (if (n + 1) % 25 = 0 then k0_pay1 else totAt c n (Nat.lt_of_succ_lt hn))

/-- What step `n` adds its sum to: zero at the start of a row of the grid, else what the step before left. -/
def carried (c : Dev nD) (n : ℕ) (hn : n < cfg0.N) : Vec F S1x1 .f32 :=
  if n % 25 = 0 then k0_pay1 else totAt m c (n - 1) (Nat.lt_of_le_of_lt (Nat.sub_le _ _) hn)

theorem totAt_eq (c : Dev nD) (t : Fin cfg0.N) :
    totAt m c t.val t.isLt = k0_pay4 (grid0.coords t) (col0 (blk0 m c t)) (blk1 m c t) (blk2 m c t) (carried m c t.val t.isLt) := by
  obtain ⟨n, hn⟩ := t
  cases n with
  | zero => unfold carried; rw [if_pos (Nat.zero_mod 25)]; rfl
  | succ n => unfold carried; rfl

/-- The output tile after step `t`. -/
def outAt (c : Dev nD) (t : Fin cfg0.N) : Vec F S1x8x128 .f32 :=
  k0_pay5 (grid0.coords t) (col0 (blk0 m c t)) (blk1 m c t) (blk2 m c t) (carried m c t.val t.isLt)

/-- The region's invariant before step `n`: at the start whatever the launch hands over; afterwards the running
    total's buffer at `totAt` of the step before, and the generator register at some state. -/
def PhiS (c : Dev nD) : (n : ℕ) → n ≤ cfg0.N → sProp 𝕄
  | 0, _ => Pipeline.ΦA spec0 c
  | n + 1, hn => iprop(iprop(owns (c : Thread nD τ) totM fullShare (totAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) totM fullShare (totAt m c n hn)) ∗ (∃ r, prngReg c r)) := rfl
theorem PhiS_pos (c : Dev nD) (n : ℕ) (h : n ≤ cfg0.N) (hz : n ≠ 0) :
    PhiS m c n h = iprop(iprop(owns (c : Thread nD τ) totM fullShare (totAt m c (n - 1) (by omega))) ∗ (∃ r, prngReg c r)) := by
  cases n with
  | zero => exact absurd rfl hz
  | succ n => rfl

/-! ## The proof data -/

/-- The arrays as the region finds them; after the body each input buffer at its block, the output tile at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = blk0 m c t := by dsimp only [dats]
theorem after1 (c : Dev nD) (t : Fin cfg0.N) : (dats m 0 c).after 1 t = blk1 m c t := by dsimp only [dats]
theorem after2 (c : Dev nD) (t : Fin cfg0.N) : (dats m 0 c).after 2 t = blk2 m c t := by dsimp only [dats]
theorem after3 (c : Dev nD) (t : Fin cfg0.N) : (dats m 0 c).after 3 t = outAt m c t := by dsimp only [dats]

/-- Each input's current buffer holds its block on the rows inside the array at every step, fetched there or not
    (step 49 refetches nothing: it revisits block 48, which is still there). -/
theorem before0 (c : Dev nD) (t : Fin cfg0.N) (d) :
    (dats m 0 c).before 0 t d = win0_0.fill (grid0.coords t) d (iblk m c 0 t) :=
  ((dats m 0 c).before_in_eq_fetched 0 rfl (fun _ => rfl)
    (fun t t' h => funext fun a => congrArg (fun k => Pipeline.Clip.of k _ _) (congrFun h a))
    (fun t => by rw [after0]; exact win0_0.cut_fill _ _ _) t d).trans rfl
theorem before1 (c : Dev nD) (t : Fin cfg0.N) (d) :
    (dats m 0 c).before 1 t d = win0_1.fill (grid0.coords t) d (iblk m c 1 t) :=
  ((dats m 0 c).before_in_eq_fetched 1 rfl (fun _ => rfl)
    (fun t t' h => funext fun a => congrArg (fun k => Pipeline.Clip.of k _ _) (congrFun h a))
    (fun t => by rw [after1]; exact win0_1.cut_fill _ _ _) t d).trans rfl
theorem before2 (c : Dev nD) (t : Fin cfg0.N) (d) :
    (dats m 0 c).before 2 t d = win0_2.fill (grid0.coords t) d (iblk m c 2 t) :=
  ((dats m 0 c).before_in_eq_fetched 2 rfl (fun _ => rfl)
    (fun t t' h => funext fun a => congrArg (fun k => Pipeline.Clip.of k _ _) (congrFun h a))
    (fun t => by rw [after2]; exact win0_2.cut_fill _ _ _) t d).trans rfl

/-! ## The kept lanes lie on the rows inside the array -/

/-- At every step the block's part inside the array is all 40,960 rows or ends exactly at row 2,000,000. -/
theorem rows0 : ∀ t : Fin cfg0.N, win0_0.xsize (grid0.coords t) 0 = 40960 ∨ 2000000 ≤ t.val * 40960 + win0_0.xsize (grid0.coords t) 0 :=
  (by decide +kernel : ∀ t : Fin grid0.N, win0_0.xsize (grid0.coords t) 0 = 40960 ∨ 2000000 ≤ t.val * 40960 + win0_0.xsize (grid0.coords t) 0)
theorem rows1 : ∀ t : Fin cfg0.N, win0_1.xsize (grid0.coords t) 0 = 40960 ∨ 2000000 ≤ t.val * 40960 + win0_1.xsize (grid0.coords t) 0 :=
  (by decide +kernel : ∀ t : Fin grid0.N, win0_1.xsize (grid0.coords t) 0 = 40960 ∨ 2000000 ≤ t.val * 40960 + win0_1.xsize (grid0.coords t) 0)
theorem rows2 : ∀ t : Fin cfg0.N, win0_2.xsize (grid0.coords t) 0 = 40960 ∨ 2000000 ≤ t.val * 40960 + win0_2.xsize (grid0.coords t) 0 :=
  (by decide +kernel : ∀ t : Fin grid0.N, win0_2.xsize (grid0.coords t) 0 = 40960 ∨ 2000000 ≤ t.val * 40960 + win0_2.xsize (grid0.coords t) 0)
/-- The probability block is never cut across its 21 columns. -/
theorem cols0 : ∀ t : Fin cfg0.N, win0_0.xsize (grid0.coords t) 1 = 21 :=
  (by decide +kernel : ∀ t : Fin grid0.N, win0_0.xsize (grid0.coords t) 1 = 21)

/-- So a lane whose row number is below 2,000,000 is on the part of each block the fetch fills. -/
theorem kept0 (t : Fin cfg0.N) (r : Fin 40960) (h : t.val * 40960 + r.val < 2000000) :
    win0_0.moved (grid0.coords t) (ix2 r (0 : Fin 21)) = true := by
  rw [Window.moved_iff]; intro a
  match a with
  | ⟨0, _⟩ =>
    show r.val < win0_0.xsize (grid0.coords t) 0
    rcases rows0 t with e | e
    · rw [e]; exact r.isLt
    · omega
  | ⟨1, _⟩ => show (0 : ℕ) < win0_0.xsize (grid0.coords t) 1; rw [cols0 t]; omega
theorem kept1 (t : Fin cfg0.N) (r : Fin 40960) (h : t.val * 40960 + r.val < 2000000) :
    win0_1.moved (grid0.coords t) (ix1 r) = true := by
  rw [Window.moved_iff]; intro a
  match a with
  | ⟨0, _⟩ =>
    show r.val < win0_1.xsize (grid0.coords t) 0
    rcases rows1 t with e | e
    · rw [e]; exact r.isLt
    · omega
theorem kept2 (t : Fin cfg0.N) (r : Fin 40960) (h : t.val * 40960 + r.val < 2000000) :
    win0_2.moved (grid0.coords t) (ix1 r) = true := by
  rw [Window.moved_iff]; intro a
  match a with
  | ⟨0, _⟩ =>
    show r.val < win0_2.xsize (grid0.coords t) 0
    rcases rows2 t with e | e
    · rw [e]; exact r.isLt
    · omega

/-- On the filled part a buffer's contents do not depend on the filler. -/
theorem fill_kept {α : Type} (w : Window sig grid0) (i : grid0.Coords) (d d' : w.block.Idx → α) (g : (w.xblock i).Idx → α)
    (j : w.block.Idx) (h : w.moved i j = true) : w.fill i d g j = w.fill i d' g j := by
  unfold Window.fill; rw [dif_pos h, dif_pos h]

/-- The step's new total is the same whatever the three buffers hold below the rows inside the array. -/
theorem step_indep (c : Dev nD) (t : Fin cfg0.N) (d0 : S40960x21.Idx → Elt F .f32) (d1 : S40960.Idx → Elt F .i32)
    (d2 : S40960.Idx → Elt F .f32) (prev : Vec F S1x1 .f32) :
    k0_pay3 (grid0.coords t) (col0 (win0_0.fill (grid0.coords t) d0 (iblk m c 0 t))) (win0_1.fill (grid0.coords t) d1 (iblk m c 1 t))
        (win0_2.fill (grid0.coords t) d2 (iblk m c 2 t)) prev
      = k0_pay3 (grid0.coords t) (col0 (blk0 m c t)) (blk1 m c t) (blk2 m c t) prev :=
  pay3_congr t _ _ _ _ _ _ prev fun r hr =>
    ⟨by rw [col0_at, col0_at]; exact fill_kept win0_0 _ _ _ _ _ (kept0 t r hr),
     fill_kept win0_1 _ _ _ _ _ (kept1 t r hr), fill_kept win0_2 _ _ _ _ _ (kept2 t r hr)⟩

theorem tot_indep (c : Dev nD) (t : Fin cfg0.N) (d0 : S40960x21.Idx → Elt F .f32) (d1 : S40960.Idx → Elt F .i32)
    (d2 : S40960.Idx → Elt F .f32) (prev : Vec F S1x1 .f32) :
    k0_pay4 (grid0.coords t) (col0 (win0_0.fill (grid0.coords t) d0 (iblk m c 0 t))) (win0_1.fill (grid0.coords t) d1 (iblk m c 1 t))
        (win0_2.fill (grid0.coords t) d2 (iblk m c 2 t)) prev
      = k0_pay4 (grid0.coords t) (col0 (blk0 m c t)) (blk1 m c t) (blk2 m c t) prev := by
  unfold k0_pay4; rw [step_indep]

theorem out_indep (c : Dev nD) (t : Fin cfg0.N) (d0 : S40960x21.Idx → Elt F .f32) (d1 : S40960.Idx → Elt F .i32)
    (d2 : S40960.Idx → Elt F .f32) (prev : Vec F S1x1 .f32) :
    k0_pay5 (grid0.coords t) (col0 (win0_0.fill (grid0.coords t) d0 (iblk m c 0 t))) (win0_1.fill (grid0.coords t) d1 (iblk m c 1 t))
        (win0_2.fill (grid0.coords t) d2 (iblk m c 2 t)) prev
      = k0_pay5 (grid0.coords t) (col0 (blk0 m c t)) (blk1 m c t) (blk2 m c t) prev := by
  unfold k0_pay5; rw [step_indep]

/-! ## The body obligation, at a generic step -/

/-- Each window's current staging buffer at step `t`, as the pipeline passes it. -/
abbrev ms0 (t : Fin cfg0.N) : Memref sig .tc .vmem S40960x21 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S40960 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S40960 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x128 .f32 := win0_3.stage (cfg0.slots t 3)
abbrev hs3 (t : Fin cfg0.N) : (ms3 t).IsWhole := hstage0_3 ((cfg0.slots t 3).cast nbuf0_3)

/-- What the body is called with at step `t`: the invariant, what the core owes, and each window's buffer at what
    it then holds, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns: the inputs' buffers described on the rows inside the array only, the output tile's whole. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ (∃ d, owns (c : Thread nD τ) (ms1 t) fullShare (win0_1.fill (grid0.coords t) d (win0_1.cut (grid0.coords t) ((dats m 0 c).after 1 t))))
    ∗ (∃ d, owns (c : Thread nD τ) (ms2 t) fullShare (win0_2.fill (grid0.coords t) d (win0_2.cut (grid0.coords t) ((dats m 0 c).after 2 t))))
    ∗ owns (c : Thread nD τ) (ms3 t) fullShare ((dats m 0 c).after 3 t))

set_option maxHeartbeats 4000000 in
/-- The body at any step. The inputs' buffers hold their blocks over some filler; the step opens a row of the grid
    or continues one; the run of that case applies, the running total handed over at what the step before left (at
    anything when a row opens) and taken back at this step's total, which does not depend on the fillers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [after0, after1, after2, after3]
  rw [show win0_0.cut (grid0.coords t) (blk0 m c t) = iblk m c 0 t from win0_0.cut_fill _ _ _,
    show win0_1.cut (grid0.coords t) (blk1 m c t) = iblk m c 1 t from win0_1.cut_fill _ _ _,
    show win0_2.cut (grid0.coords t) (blk2 m c t) = iblk m c 2 t from win0_2.cut_fill _ _ _]
  have hN : t.val < 50 := lt_of_lt_of_eq t.isLt (show cfg0.N = 50 from N_0)
  rw [totAt_eq m c t]
  unfold outAt
  by_cases h0 : t.val % 25 = 0
  · rw [show carried m c t.val t.isLt = k0_pay1 from if_pos h0]
    have hpre : (dats m 0 c).Φ t.castSucc ⊢ (iprop(iprop((∃ d, owns (c : Thread nD τ) totM fullShare d)) ∗ (∃ r, prngReg c r)) : sProp 𝕄) := by
      rw [PhiS_castSucc m c t]
      by_cases hz : t.val = 0
      · rw [PhiS_zero m c _ _ hz, PhiA_eq]
      · rw [PhiS_pos m c _ _ hz]
        iintro ⟨HS, Hg⟩
        isplitl [HS]
        · iexists _; iexact HS
        iexact Hg
    iintro ⟨HΦ, Ho, ⟨%d0, H0⟩, ⟨%d1, H1⟩, ⟨%d2, H2⟩, ⟨%d3, H3⟩⟩
    ihave HΦ' := hpre $$ HΦ
    icases HΦ' with ⟨HS, Hg⟩
    iapply ((runOpen c (grid0.coords t) (ms0 t) (hs0 t) (ms1 t) (hs1 t) (ms2 t) (hs2 t) (ms3 t) (hs3 t) totM (Memref.isWhole_whole _) ((opensRow_iff t).mpr h0)
      (win0_0.fill (grid0.coords t) d0 (iblk m c 0 t)) (win0_1.fill (grid0.coords t) d1 (iblk m c 1 t)) (win0_2.fill (grid0.coords t) d2 (iblk m c 2 t))).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e5, H5⟩, ⟨%e6, H6⟩⟩
    isplitl [H6 Hg]
    · isplitl [H6]
      · unfold owns; iexists _; isplitr
        swap; · iexact H6
        ipureintro
        exact (View.read_writes_of_cover _ _ _ _ _ (coverT_open c _ _ _ _ _ _ _ _ _ _ _ _ _ _ _)).trans
          ((tot_open c _ _ _ _ _ _ _ _ _ _ _ _ _ _ _).trans (tot_indep m c t d0 d1 d2 _))
      iexact Hg
    isplitl [Ho]; · iexact Ho
    isplitl [H0]; · iexists d0; iexact H0
    isplitl [H1]; · iexists d1; iexact H1
    isplitl [H2]; · iexists d2; iexact H2
    unfold owns; iexists _; isplitr
    swap; · iexact H5
    ipureintro
    exact (View.read_writes_of_cover _ _ _ _ _ (coverO_open c _ _ _ _ _ _ _ _ _ _ _ _ _ _ _)).trans
      ((out_open c _ _ _ _ _ _ _ _ _ _ _ _ _ _ _).trans (out_indep m c t d0 d1 d2 _))
  · have hz : t.val ≠ 0 := fun h => h0 (by rw [h])
    rw [show carried m c t.val t.isLt = totAt m c (t.val - 1) (Nat.lt_of_le_of_lt (Nat.sub_le _ _) t.isLt) from if_neg h0]
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runNext c (grid0.coords t) (ms0 t) (hs0 t) (ms1 t) (hs1 t) (ms2 t) (hs2 t) (ms3 t) (hs3 t) totM (Memref.isWhole_whole _) (fun h => h0 ((opensRow_iff t).mp h))
      (win0_0.fill (grid0.coords t) d0 (iblk m c 0 t)) (win0_1.fill (grid0.coords t) d1 (iblk m c 1 t)) (win0_2.fill (grid0.coords t) d2 (iblk m c 2 t))
      (totAt m c (t.val - 1) (Nat.lt_of_le_of_lt (Nat.sub_le _ _) t.isLt))).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e5, H5⟩, ⟨%e6, H6⟩⟩
    isplitl [H6 Hg]
    · isplitl [H6]
      · unfold owns; iexists _; isplitr
        swap; · iexact H6
        ipureintro
        exact (View.read_writes_of_cover _ _ _ _ _ (coverT_next c _ _ _ _ _ _ _ _ _ _ _ _ _ _ _ _)).trans
          ((tot_next c _ _ _ _ _ _ _ _ _ _ _ _ _ _ _ _).trans (tot_indep m c t d0 d1 d2 _))
      iexact Hg
    isplitl [Ho]; · iexact Ho
    isplitl [H0]; · iexists d0; iexact H0
    isplitl [H1]; · iexists d1; iexact H1
    isplitl [H2]; · iexists d2; iexact H2
    unfold owns; iexists _; isplitr
    swap; · iexact H5
    ipureintro
    exact (View.read_writes_of_cover _ _ _ _ _ (coverO_next c _ _ _ _ _ _ _ _ _ _ _ _ _ _ _ _)).trans
      ((out_next c _ _ _ _ _ _ _ _ _ _ _ _ _ _ _ _).trans (out_indep m c t d0 d1 d2 _))

/-- The library's body obligation, at every step. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first step, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last step the invariant gives it back, the total's contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨HS, Hg⟩
  isplitl [HS]
  · iexists _; iexact HS
  iexact Hg

/-! ## The run and the frame -/

set_option backward.isDefEq.respectTransparency.types false in
/-- Every weakly fair execution of @main terminates, and every final state has each array of the pipeline at what the
    write-backs leave and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := body_obligation m) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: the program runs to the end, faults nowhere and leaves its nine arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Body

end
-- ==== Proof.BodyRuns.lean ====
/-
  The kernel body, run once on arbitrary whole staging buffers, in each of its two control cases.

  A grid point (c, i) of the 2 × 25 grid either opens a row of 25 points (i = 0) or continues one. At an opening
  point the body first clears the one-word running total and the output tile, then goes on as at any other point:
  it reads column 0 of the probability block, the label block and the weight block, forms the masked products,
  adds their sum to the running total, stores the total back and stores its broadcast over the output tile. The
  three input buffers are only read. What each case leaves in the running total and in the output tile is recorded
  as the list of its stores, last first.
-/
import proofs.«424507_j10058813407513_4_alg».proof.Proof.Gen.KernelIdeal.Frame
import proofs.«424507_j10058813407513_4_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The point opens a row of the grid: its second coordinate is zero (the body's own test, as it spells it). -/
abbrev opensRow (i : grid0.Coords) : Prop :=
  (Scalar.cmpi .ne (Scalar.extui (Scalar.cmpi .eq (BitVec.ofNat 32 (i 1).val) 0#32)) 0#32) = 1#1

/-- Over the 50 points in row-major order, those are the points 0 and 25. -/
theorem opensRow_iff : ∀ t : Fin cfg0.N, opensRow (grid0.coords t) ↔ t.val % 25 = 0 :=
  (by decide +kernel : ∀ t : Fin grid0.N, opensRow (grid0.coords t) ↔ t.val % 25 = 0)

/-- The running total's buffer. -/
abbrev totM : Memref sig .tc .vmem S1x1 .f32 := Memref.whole cc0_scratch0

/-- What the region may use besides its windows: the running total's buffer at some contents, and the generator
    register at some state. -/
theorem PhiA_eq (c : Dev nD) :
    (Pipeline.ΦA spec0 c : sProp 𝕄)
      = iprop(iprop((∃ d, owns (c : Thread nD τ) totM fullShare d)) ∗ (∃ r, prngReg c r)) := by
  unfold Pipeline.ΦA; rw [scopedRest0_eq]; simp only [totM, owns_whole]; try rfl

set_option maxHeartbeats 1000000 in
/-- A point that continues a row: the running total arrives at `xs`, the output tile at anything. -/
noncomputable def runNext (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : ¬opensRow i)
    (x0 : Vec F S40960x21 .f32) (x1 : Vec F S40960 .i32) (x2 : Vec F S40960 .f32) (xs : Vec F S1x1 .f32) :
    Σ' (L5 : List (View.Piece (Elt F) S1x8x128 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d5, %f5, -, H5⟩, ⟨%f6, %hf6, H6⟩, Hk⟩
    obtain rfl := harg2.eq_unread hf0; obtain rfl := harg3.eq_unread hf1; obtain rfl := harg4.eq_unread hf2
    obtain rfl := harg6.eq_unread hf6
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    iexists _; iexact H6

set_option maxHeartbeats 1000000 in
/-- A point that opens a row: the running total and the output tile arrive at anything and are cleared first. -/
noncomputable def runOpen (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : opensRow i)
    (x0 : Vec F S40960x21 .f32) (x1 : Vec F S40960 .i32) (x2 : Vec F S40960 .f32) :
    Σ' (L5 : List (View.Piece (Elt F) S1x8x128 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    iexists _; iexact H6

/-! ## What each case leaves, read back -/

/-- One buffer of the output window and the running total's, through which contents are stated (which buffer does
    not matter once the stores cover it). -/
abbrev VO : View sig .tc .vmem S1x8x128 .f32 := (Memref.whole cc0_stg3_0 : Memref sig .tc .vmem S1x8x128 .f32).view
abbrev VT : View sig .tc .vmem S1x1 .f32 := totM.view

/-- In either case the stores into the output tile cover it, and so do the stores into the running total. -/
theorem coverO_next (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : ¬opensRow i)
    (x0 : Vec F S40960x21 .f32) (x1 : Vec F S40960 .i32) (x2 : Vec F S40960 .f32) (xs : Vec F S1x1 .f32) (y : S1x8x128.Idx) :
    ∃ pc ∈ (runNext c i arg2 harg2 arg3 harg3 arg4 harg4 arg5 harg5 arg6 harg6 hc x0 x1 x2 xs).1, y ∈ pc.1.set :=
  View.cover_of_tiledL (runNext c i arg2 harg2 arg3 harg3 arg4 harg4 arg5 harg5 arg6 harg6 hc x0 x1 x2 xs).1 S1x8x128.size (by sl_kernel_rfl) y
theorem coverT_next (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : ¬opensRow i)
    (x0 : Vec F S40960x21 .f32) (x1 : Vec F S40960 .i32) (x2 : Vec F S40960 .f32) (xs : Vec F S1x1 .f32) (y : S1x1.Idx) :
    ∃ pc ∈ (runNext c i arg2 harg2 arg3 harg3 arg4 harg4 arg5 harg5 arg6 harg6 hc x0 x1 x2 xs).2.1, y ∈ pc.1.set :=
  View.cover_of_tiledL (runNext c i arg2 harg2 arg3 harg3 arg4 harg4 arg5 harg5 arg6 harg6 hc x0 x1 x2 xs).2.1 S1x1.size (by sl_kernel_rfl) y
theorem coverO_open (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : opensRow i)
    (x0 : Vec F S40960x21 .f32) (x1 : Vec F S40960 .i32) (x2 : Vec F S40960 .f32) (y : S1x8x128.Idx) :
    ∃ pc ∈ (runOpen c i arg2 harg2 arg3 harg3 arg4 harg4 arg5 harg5 arg6 harg6 hc x0 x1 x2).1, y ∈ pc.1.set :=
  View.cover_of_tiledL (runOpen c i arg2 harg2 arg3 harg3 arg4 harg4 arg5 harg5 arg6 harg6 hc x0 x1 x2).1 S1x8x128.size (by sl_kernel_rfl) y
theorem coverT_open (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : opensRow i)
    (x0 : Vec F S40960x21 .f32) (x1 : Vec F S40960 .i32) (x2 : Vec F S40960 .f32) (y : S1x1.Idx) :
    ∃ pc ∈ (runOpen c i arg2 harg2 arg3 harg3 arg4 harg4 arg5 harg5 arg6 harg6 hc x0 x1 x2).2.1, y ∈ pc.1.set :=
  View.cover_of_tiledL (runOpen c i arg2 harg2 arg3 harg3 arg4 harg4 arg5 harg5 arg6 harg6 hc x0 x1 x2).2.1 S1x1.size (by sl_kernel_rfl) y

end Cert.KernelIdeal.Body

end
-- ==== Proof.PayCongr.lean ====
/-
  What one grid step adds to the running total depends on its three input blocks only through the lanes the row
  test keeps: lane `r` of step `t` is row `t · 40960 + r`, kept only when that row number is below 2,000,000,
  and on every other lane both selects take their constant branch whatever the block holds there.
-/
import proofs.«424507_j10058813407513_4_alg».proof.Proof.Gen.KernelIdeal.Skeleton
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

variable {F : FTy → Type} [FloatOps F]

/-! ## Words -/

/-- A one-bit word made from a truth value is `1` exactly when the value is true. -/
theorem ofBool_eq_one (b : Bool) : BitVec.ofBool b = 1#1 ↔ b = true := by cases b <;> decide

/-- The conjunction of two one-bit words is `1` exactly when both are. -/
theorem and_eq_one : ∀ a b : BitVec 1, a &&& b = 1#1 ↔ (b = 1#1 ∧ a = 1#1) := by decide

/-- The grid has fifty points. -/
theorem N_eq : grid0.N = 50 := by decide

/-- The first row of step `t`'s block, as the kernel computes it in 32-bit words from the two grid coordinates:
    `(c₀ · 25 + c₁) · 40960 = t · 40960`, the grid being 2 × 25 walked in row-major order. Fifty closed cases. -/
theorem rowBase_eq : ∀ t : Fin grid0.N,
    Scalar.muli (Scalar.addi (Scalar.muli (BitVec.ofNat 32 ((grid0.coords t) 0).val) 25#32)
      (BitVec.ofNat 32 ((grid0.coords t) 1).val)) 40960#32 = BitVec.ofNat 32 (t.val * 40960) := by
  decide +kernel

/-- A number below `2³¹`, as a 32-bit word, is signed-less-than 2,000,000 exactly when it is less than 2,000,000. -/
theorem slt_two_million (n : ℕ) (hn : n < 2048000) :
    IntOp.cmpi .slt (BitVec.ofNat 32 n) 2000000#32 = 1#1 ↔ n < 2000000 := by
  show BitVec.ofBool ((BitVec.ofNat 32 n).slt 2000000#32) = 1#1 ↔ _
  rw [ofBool_eq_one]
  show decide ((BitVec.ofNat 32 n).toInt < (2000000#32 : BitVec 32).toInt) = true ↔ _
  have hmod : n % 2 ^ 32 = n := Nat.mod_eq_of_lt (by omega)
  have e1 : (BitVec.ofNat 32 n).toInt = (n : Int) := by
    rw [BitVec.toInt_eq_toNat_of_lt (by rw [BitVec.toNat_ofNat, hmod]; omega), BitVec.toNat_ofNat, hmod]
  have e2 : (2000000#32 : BitVec 32).toInt = 2000000 := by decide
  rw [decide_eq_true_iff, e1, e2]
  omega

/-! ## The lane mask -/

/-- The row test of the kernel's mask: lane `r`'s row number, the block's first row plus `r`, signed-compared with
    2,000,000. -/
def rowTest (i : grid0.Coords) : IVec S40960 1 :=
  cmpi .slt
    (addi (broadcast S40960 (Scalar.muli (Scalar.addi (Scalar.muli (BitVec.ofNat 32 (i 0).val) 25#32) (BitVec.ofNat 32 (i 1).val)) 40960#32))
      (shapeCast S40960 (iota .tc S1x40960 32 [1] iota_S1x40960_d1_w32) shapeCasts_S1x40960_S40960))
    (broadcast S40960 2000000#32)

/-- The lane numbers `0 ‥ 40959`, read at lane `r`. -/
theorem lanes_apply (r : Fin 40960) :
    shapeCast S40960 (iota .tc S1x40960 32 [1] iota_S1x40960_d1_w32) shapeCasts_S1x40960_S40960 (ix1 r) = BitVec.ofNat 32 r.val := by
  refine (shapeCast_apply _ shapeCasts_S1x40960_S40960 (ix1 r) (ix2 (0 : Fin 1) r) ?_).trans ?_
  · rw [Shape.rowMajor_val_two, Shape.rowMajor_val_one]
    show (0 : ℕ) * 40960 + r.val = r.val
    omega
  · exact iota_single_apply .tc S1x40960 32 1 iota_S1x40960_d1_w32 (ix2 (0 : Fin 1) r)

/-- At lane `r` of step `t` the row test is on exactly when row `t · 40960 + r` is below 2,000,000: the sum stays
    below `50 · 40960 < 2³¹`, so neither the 32-bit addition nor the signed reading changes it. -/
theorem rowTest_apply (t : Fin grid0.N) (r : Fin 40960) :
    rowTest (grid0.coords t) (ix1 r) = 1#1 ↔ t.val * 40960 + r.val < 2000000 := by
  show IntOp.cmpi .slt (IntOp.addi (Scalar.muli (Scalar.addi (Scalar.muli (BitVec.ofNat 32 ((grid0.coords t) 0).val) 25#32)
      (BitVec.ofNat 32 ((grid0.coords t) 1).val)) 40960#32)
      (shapeCast S40960 (iota .tc S1x40960 32 [1] iota_S1x40960_d1_w32) shapeCasts_S1x40960_S40960 (ix1 r))) 2000000#32 = 1#1 ↔ _
  rw [rowBase_eq t, lanes_apply r]
  have ht : t.val < 50 := lt_of_lt_of_eq t.isLt N_eq
  have hr := r.isLt
  rw [show IntOp.addi (BitVec.ofNat 32 (t.val * 40960)) (BitVec.ofNat 32 r.val) = BitVec.ofNat 32 (t.val * 40960 + r.val)
    from (BitVec.ofNat_add _ _).symm]
  exact slt_two_million _ (by omega)

/-- The kernel's lane mask: the label is zero and the row is inside the array. -/
def laneMask (i : grid0.Coords) (v7 : IVec S40960 32) : IVec S40960 1 :=
  andi (cmpi .eq v7 (broadcast S40960 0#32)) (rowTest i)

/-- The mask at lane `r` of step `t`. -/
theorem laneMask_apply (t : Fin grid0.N) (v7 : IVec S40960 32) (r : Fin 40960) :
    laneMask (grid0.coords t) v7 (ix1 r) = 1#1 ↔ (t.val * 40960 + r.val < 2000000 ∧ v7 (ix1 r) = 0#32) := by
  show BitVec.ofBool (v7 (ix1 r) == 0#32) &&& rowTest (grid0.coords t) (ix1 r) = 1#1 ↔ _
  rw [and_eq_one, rowTest_apply, ofBool_eq_one, beq_iff_eq]

/-- A select under the mask against a constant, at lane `r` of step `t`: the vector's lane where the mask is on, the
    constant elsewhere. -/
theorem select_laneMask_apply {α : Type} (t : Fin grid0.N) (v7 : IVec S40960 32) (a : S40960.Idx → α) (c : α) (r : Fin 40960) :
    select (laneMask (grid0.coords t) v7) a (broadcast S40960 c) (ix1 r)
      = if t.val * 40960 + r.val < 2000000 ∧ v7 (ix1 r) = 0#32 then a (ix1 r) else c := by
  show (if laneMask (grid0.coords t) v7 (ix1 r) = 1#1 then a (ix1 r) else c) = _
  exact if_congr (laneMask_apply t v7 r) rfl rfl

/-- Such a select reads the labels and the vector only on the rows below 2,000,000. -/
theorem select_laneMask_congr {α : Type} (t : Fin grid0.N) (v7 v7' : IVec S40960 32) (a a' : S40960.Idx → α) (c : α)
    (h : ∀ r : Fin 40960, t.val * 40960 + r.val < 2000000 → v7 (ix1 r) = v7' (ix1 r) ∧ a (ix1 r) = a' (ix1 r)) :
    select (laneMask (grid0.coords t) v7) a (broadcast S40960 c) = select (laneMask (grid0.coords t) v7') a' (broadcast S40960 c) := by
  funext j
  obtain ⟨r, rfl⟩ : ∃ r : Fin 40960, j = ix1 r := ⟨j 0, eq_ix1 j⟩
  rw [select_laneMask_apply, select_laneMask_apply]
  by_cases hr : t.val * 40960 + r.val < 2000000
  · obtain ⟨h7, ha⟩ := h r hr
    rw [h7, ha]
  · rw [if_neg (fun hh => hr hh.1), if_neg (fun hh => hr hh.1)]

/-- The probability block's one column as a vector of lanes, at lane `r`. -/
theorem col0_apply {α : Type} (v5 : S40960x1.Idx → α) (r : Fin 40960) :
    shapeCast S40960 v5 shapeCasts_S40960x1_S40960 (ix1 r) = v5 (ix2 r (0 : Fin 1)) := by
  refine shapeCast_apply v5 shapeCasts_S40960x1_S40960 (ix1 r) (ix2 r (0 : Fin 1)) ?_
  rw [Shape.rowMajor_val_two, Shape.rowMajor_val_one]
  show r.val * 1 + (0 : ℕ) = r.val
  omega

/-! ## The step's arithmetic in two parts -/

/-- What the step does with its 40,960 lane products: sums them (a lane reduction from zero) and adds the sum to the old
    total. -/
def stepTotal (v25 : FVec F S1x1 .f32) (x : FVec F S40960 .f32) : FVec F S1x1 .f32 :=
  addf v25 (broadcast S1x1 (extractAt ![0, 0] (shapeCast S1x1
    (multiReduction .add [1] S1 (shapeCast S1x40960 x shapeCasts_S40960_S1x40960) 0x00000000#32 reduces_S1x40960_S1 (.inl rfl) rfl)
    shapeCasts_S1_S1x1) inpos_S1x1_p0_0))

/-- The step's lane products: the masked weight (zero off the mask) times the log of the masked probability (one off the
    mask). -/
def laneTerms (i : grid0.Coords) (v5 : Vec F S40960x1 .f32) (v7 : Vec F S40960 .i32) (v8 : Vec F S40960 .f32) : FVec F S40960 .f32 :=
  mulf (select (laneMask i v7) v8 (broadcast S40960 (Scalar.ofBits .f32 0x00000000#32)))
    (log (select (laneMask i v7) (shapeCast S40960 v5 shapeCasts_S40960x1_S40960) (broadcast S40960 (Scalar.ofBits .f32 0x3F800000#32))))

/-- The printed arithmetic is these two parts. -/
theorem k0_pay3_eq (i : grid0.Coords) (v5 : Vec F S40960x1 .f32) (v7 : Vec F S40960 .i32) (v8 : Vec F S40960 .f32) (v25 : Vec F S1x1 .f32) :
    k0_pay3 i v5 v7 v8 v25 = stepTotal v25 (laneTerms i v5 v7 v8) := rfl

/-- Two triples of input blocks that agree on the rows below 2,000,000 give the step the same new total. -/
theorem pay3_congr (t : Fin grid0.N) (v5 v5' : Vec F S40960x1 .f32) (v7 v7' : Vec F S40960 .i32)
    (v8 v8' : Vec F S40960 .f32) (v25 : Vec F S1x1 .f32)
    (h : ∀ r : Fin 40960, t.val * 40960 + r.val < 2000000 →
      v5 (ix2 r (0 : Fin 1)) = v5' (ix2 r (0 : Fin 1)) ∧ v7 (ix1 r) = v7' (ix1 r) ∧ v8 (ix1 r) = v8' (ix1 r)) :
    k0_pay3 (grid0.coords t) v5 v7 v8 v25 = k0_pay3 (grid0.coords t) v5' v7' v8' v25 := by
  rw [k0_pay3_eq, k0_pay3_eq]
  unfold laneTerms
  rw [select_laneMask_congr t v7 v7' v8 v8' _ (fun r hr => ⟨(h r hr).2.1, (h r hr).2.2⟩),
    select_laneMask_congr t v7 v7' (shapeCast S40960 v5 shapeCasts_S40960x1_S40960) (shapeCast S40960 v5' shapeCasts_S40960x1_S40960) _
      (fun r hr => ⟨(h r hr).2.1, by rw [col0_apply, col0_apply]; exact (h r hr).1⟩)]

end Cert.KernelIdeal.Payload

end
-- ==== Proof.BodyData.lean ====
/-
  The proof data of the one pipeline, the body's obligation at every grid point, and the run of @main.

  Step `t` of the 50 reads block `min t 48` of each of the three inputs. Blocks 0 ‥ 47 lie inside the arrays;
  block 48 holds the last 33,920 rows and overhangs by 7,040, and step 49 looks at block 48 again. Past the
  array's end a staging buffer holds words nothing names, so what a buffer holds is the block on its leading rows
  and an unknown filler `d` below them. The body never lets the filler through: a lane is kept only if its row
  number `t · 40960 + r` is below 2,000,000, and every such lane lies on the block's leading rows. So the new
  running total is the same function of the arrays whatever the filler was, and it can be named once and for all
  (`totAt`), by recursion on the step: the total restarts from zero at steps 0 and 25 and otherwise continues
  from what the step before left. The output tile after step `t` is that total broadcast (`outAt`).
-/
import proofs.«424507_j10058813407513_4_alg».proof.Proof.BodyRuns
import proofs.«424507_j10058813407513_4_alg».proof.Proof.PayCongr

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal.Payload Idealize.ShloMosaic.ValueIdx

variable (m : (ℓ : Loc nD τ sig) → Buf (Elt F) ℓ) (ρ : Dev nD → PrngReg)

/-! ## What each case's stores leave -/

theorem zero2 : (![0, 0] : Fin 2 → Nat) = fun _ => 0 := funext fun a => by fin_cases a <;> rfl
theorem zero1 : (![0] : Fin 1 → Nat) = fun _ => 0 := funext fun a => by fin_cases a <;> rfl
theorem zero3 : (![0, 0, 0] : Fin 3 → Nat) = fun _ => 0 := funext fun a => by fin_cases a <;> rfl

/-- The body's load of the probability block takes its column 0. -/
abbrev col0 (x0 : Vec F S40960x21 .f32) : Vec F S40960x1 .f32 :=
  View.ld x0 (Rect.unit (s := S40960x21) ![0, 0] S40960x1.size inb_S40960x21_S40960x1_0_0)

theorem col0_at (x0 : Vec F S40960x21 .f32) (r : Fin 40960) : col0 x0 (ix2 r (0 : Fin 1)) = x0 (ix2 r (0 : Fin 21)) := by
  show x0 _ = x0 _
  refine congrArg x0 (funext fun a => Fin.ext ?_)
  match a with
  | ⟨0, _⟩ => show (0 : ℕ) + 1 * r.val = r.val; omega
  | ⟨1, _⟩ => show (0 : ℕ) + 1 * 0 = 0; omega

/-- A continuing point leaves the running total at the old total plus the step's sum, -/
theorem tot_next (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : ¬opensRow i)
    (x0 : Vec F S40960x21 .f32) (x1 : Vec F S40960 .i32) (x2 : Vec F S40960 .f32) (xs : Vec F S1x1 .f32) :
    VT.read (Elt F) (VT.writes (Elt F) VT.junk (runNext c i arg2 harg2 arg3 harg3 arg4 harg4 arg5 harg5 arg6 harg6 hc x0 x1 x2 xs).2.1) = k0_pay4 i (col0 x0) x1 x2 xs := by
  rw [View.read_writes_eq_canon _ _ _ (coverT_next c i arg2 harg2 arg3 harg3 arg4 harg4 arg5 harg5 arg6 harg6 hc x0 x1 x2 xs)]
  unfold runNext; dsimp only; sl_unfold_words
  rw [View.canon_unit_zero (S := S1x1) zero2]
  simp only [View.readAt_eq_ld, harg2.read_unread, harg3.read_unread, harg4.read_unread, harg6.read_unread,
    View.ld_unit_zero (S := S40960) zero1, View.ld_unit_zero (S := S1x1) zero2]

/-- and the output tile at that total broadcast. -/
theorem out_next (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : ¬opensRow i)
    (x0 : Vec F S40960x21 .f32) (x1 : Vec F S40960 .i32) (x2 : Vec F S40960 .f32) (xs : Vec F S1x1 .f32) :
    VO.read (Elt F) (VO.writes (Elt F) VO.junk (runNext c i arg2 harg2 arg3 harg3 arg4 harg4 arg5 harg5 arg6 harg6 hc x0 x1 x2 xs).1) = k0_pay5 i (col0 x0) x1 x2 xs := by
  rw [View.read_writes_eq_canon _ _ _ (coverO_next c i arg2 harg2 arg3 harg3 arg4 harg4 arg5 harg5 arg6 harg6 hc x0 x1 x2 xs)]
  unfold runNext; dsimp only; sl_unfold_words
  rw [View.canon_unit_zero (S := S1x8x128) zero3]
  simp only [View.readAt_eq_ld, harg2.read_unread, harg3.read_unread, harg4.read_unread, harg6.read_unread,
    View.ld_unit_zero (S := S40960) zero1, View.ld_unit_zero (S := S1x1) zero2]

/-- An opening point clears the total first, so it leaves the step's sum added to zero, -/
theorem tot_open (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : opensRow i)
    (x0 : Vec F S40960x21 .f32) (x1 : Vec F S40960 .i32) (x2 : Vec F S40960 .f32) :
    VT.read (Elt F) (VT.writes (Elt F) VT.junk (runOpen c i arg2 harg2 arg3 harg3 arg4 harg4 arg5 harg5 arg6 harg6 hc x0 x1 x2).2.1) = k0_pay4 i (col0 x0) x1 x2 k0_pay1 := by
  rw [View.read_writes_eq_canon _ _ _ (coverT_open c i arg2 harg2 arg3 harg3 arg4 harg4 arg5 harg5 arg6 harg6 hc x0 x1 x2)]
  unfold runOpen; dsimp only; sl_unfold_words
  rw [View.canon_cons_unit_zero (S := S1x1) zero2]
  simp only [View.readAt_eq_ld, harg2.read_unread, harg3.read_unread, harg4.read_unread,
    View.ld_unit_zero (S := S40960) zero1, View.readCov_unit_zero (S := S1x1) _ zero2]

/-- and the output tile, cleared and then stored whole, at that total broadcast. -/
theorem out_open (c : Dev nD) (i : grid0.Coords) (arg2 : Memref sig .tc .vmem S40960x21 .f32) (harg2 : arg2.IsWhole) (arg3 : Memref sig .tc .vmem S40960 .i32) (harg3 : arg3.IsWhole) (arg4 : Memref sig .tc .vmem S40960 .f32) (harg4 : arg4.IsWhole) (arg5 : Memref sig .tc .vmem S1x8x128 .f32) (harg5 : arg5.IsWhole) (arg6 : Memref sig .tc .vmem S1x1 .f32) (harg6 : arg6.IsWhole) (hc : opensRow i)
    (x0 : Vec F S40960x21 .f32) (x1 : Vec F S40960 .i32) (x2 : Vec F S40960 .f32) :
    VO.read (Elt F) (VO.writes (Elt F) VO.junk (runOpen c i arg2 harg2 arg3 harg3 arg4 harg4 arg5 harg5 arg6 harg6 hc x0 x1 x2).1) = k0_pay5 i (col0 x0) x1 x2 k0_pay1 := by
  rw [View.read_writes_eq_canon _ _ _ (coverO_open c i arg2 harg2 arg3 harg3 arg4 harg4 arg5 harg5 arg6 harg6 hc x0 x1 x2)]
  unfold runOpen; dsimp only; sl_unfold_words
  rw [View.canon_cons_unit_zero (S := S1x8x128) zero3]
  simp only [View.readAt_eq_ld, harg2.read_unread, harg3.read_unread, harg4.read_unread,
    View.ld_unit_zero (S := S40960) zero1, View.readCov_unit_zero (S := S1x1) _ zero2]

/-! ## The blocks, the running total and the output tile, step by step -/

/-- The three input blocks at step `t` with a fixed filler (zero) below the rows inside the array. -/
def blk0 (c : Dev nD) (t : Fin cfg0.N) : Vec F S40960x21 .f32 :=
  win0_0.fill (grid0.coords t) (fun _ => Scalar.ofBits .f32 0#32) (iblk m c 0 t)
def blk1 (c : Dev nD) (t : Fin cfg0.N) : Vec F S40960 .i32 :=
  win0_1.fill (grid0.coords t) (fun _ => (0#32 : BitVec 32)) (iblk m c 1 t)
def blk2 (c : Dev nD) (t : Fin cfg0.N) : Vec F S40960 .f32 :=
  win0_2.fill (grid0.coords t) (fun _ => Scalar.ofBits .f32 0#32) (iblk m c 2 t)

/-- The running total after step `n`. -/
def totAt (c : Dev nD) : (n : ℕ) → n < cfg0.N → Vec F S1x1 .f32
  | 0, hn => k0_pay4 (grid0.coords ⟨0, hn⟩) (col0 (blk0 m c ⟨0, hn⟩)) (blk1 m c ⟨0, hn⟩) (blk2 m c ⟨0, hn⟩) k0_pay1
  | n + 1, hn => k0_pay4 (grid0.coords ⟨n + 1, hn⟩) (col0 (blk0 m c ⟨n + 1, hn⟩)) (blk1 m c ⟨n + 1, hn⟩) (blk2 m c ⟨n + 1, hn⟩)
      (if (n + 1) % 25 = 0 then k0_pay1 else totAt c n (Nat.lt_of_succ_lt hn))

/-- What step `n` adds its sum to: zero at the start of a row of the grid, else what the step before left. -/
def carried (c : Dev nD) (n : ℕ) (hn : n < cfg0.N) : Vec F S1x1 .f32 :=
  if n % 25 = 0 then k0_pay1 else totAt m c (n - 1) (Nat.lt_of_le_of_lt (Nat.sub_le _ _) hn)

theorem totAt_eq (c : Dev nD) (t : Fin cfg0.N) :
    totAt m c t.val t.isLt = k0_pay4 (grid0.coords t) (col0 (blk0 m c t)) (blk1 m c t) (blk2 m c t) (carried m c t.val t.isLt) := by
  obtain ⟨n, hn⟩ := t
  cases n with
  | zero => unfold carried; rw [if_pos (Nat.zero_mod 25)]; rfl
  | succ n => unfold carried; rfl

/-- The output tile after step `t`. -/
def outAt (c : Dev nD) (t : Fin cfg0.N) : Vec F S1x8x128 .f32 :=
  k0_pay5 (grid0.coords t) (col0 (blk0 m c t)) (blk1 m c t) (blk2 m c t) (carried m c t.val t.isLt)

/-- The region's invariant before step `n`: at the start whatever the launch hands over; afterwards the running
    total's buffer at `totAt` of the step before, and the generator register at some state. -/
def PhiS (c : Dev nD) : (n : ℕ) → n ≤ cfg0.N → sProp 𝕄
  | 0, _ => Pipeline.ΦA spec0 c
  | n + 1, hn => iprop(iprop(owns (c : Thread nD τ) totM fullShare (totAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) totM fullShare (totAt m c n hn)) ∗ (∃ r, prngReg c r)) := rfl
theorem PhiS_pos (c : Dev nD) (n : ℕ) (h : n ≤ cfg0.N) (hz : n ≠ 0) :
    PhiS m c n h = iprop(iprop(owns (c : Thread nD τ) totM fullShare (totAt m c (n - 1) (by omega))) ∗ (∃ r, prngReg c r)) := by
  cases n with
  | zero => exact absurd rfl hz
  | succ n => rfl

/-! ## The proof data -/

/-- The arrays as the region finds them; after the body each input buffer at its block, the output tile at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = blk0 m c t := by dsimp only [dats]
theorem after1 (c : Dev nD) (t : Fin cfg0.N) : (dats m 0 c).after 1 t = blk1 m c t := by dsimp only [dats]
theorem after2 (c : Dev nD) (t : Fin cfg0.N) : (dats m 0 c).after 2 t = blk2 m c t := by dsimp only [dats]
theorem after3 (c : Dev nD) (t : Fin cfg0.N) : (dats m 0 c).after 3 t = outAt m c t := by dsimp only [dats]

/-- Each input's current buffer holds its block on the rows inside the array at every step, fetched there or not
    (step 49 refetches nothing: it revisits block 48, which is still there). -/
theorem before0 (c : Dev nD) (t : Fin cfg0.N) (d) :
    (dats m 0 c).before 0 t d = win0_0.fill (grid0.coords t) d (iblk m c 0 t) :=
  ((dats m 0 c).before_in_eq_fetched 0 rfl (fun _ => rfl)
    (fun t t' h => funext fun a => congrArg (fun k => Pipeline.Clip.of k _ _) (congrFun h a))
    (fun t => by rw [after0]; exact win0_0.cut_fill _ _ _) t d).trans rfl
theorem before1 (c : Dev nD) (t : Fin cfg0.N) (d) :
    (dats m 0 c).before 1 t d = win0_1.fill (grid0.coords t) d (iblk m c 1 t) :=
  ((dats m 0 c).before_in_eq_fetched 1 rfl (fun _ => rfl)
    (fun t t' h => funext fun a => congrArg (fun k => Pipeline.Clip.of k _ _) (congrFun h a))
    (fun t => by rw [after1]; exact win0_1.cut_fill _ _ _) t d).trans rfl
theorem before2 (c : Dev nD) (t : Fin cfg0.N) (d) :
    (dats m 0 c).before 2 t d = win0_2.fill (grid0.coords t) d (iblk m c 2 t) :=
  ((dats m 0 c).before_in_eq_fetched 2 rfl (fun _ => rfl)
    (fun t t' h => funext fun a => congrArg (fun k => Pipeline.Clip.of k _ _) (congrFun h a))
    (fun t => by rw [after2]; exact win0_2.cut_fill _ _ _) t d).trans rfl

/-! ## The kept lanes lie on the rows inside the array -/

/-- At every step the block's part inside the array is all 40,960 rows or ends exactly at row 2,000,000. -/
theorem rows0 : ∀ t : Fin cfg0.N, win0_0.xsize (grid0.coords t) 0 = 40960 ∨ 2000000 ≤ t.val * 40960 + win0_0.xsize (grid0.coords t) 0 :=
  (by decide +kernel : ∀ t : Fin grid0.N, win0_0.xsize (grid0.coords t) 0 = 40960 ∨ 2000000 ≤ t.val * 40960 + win0_0.xsize (grid0.coords t) 0)
theorem rows1 : ∀ t : Fin cfg0.N, win0_1.xsize (grid0.coords t) 0 = 40960 ∨ 2000000 ≤ t.val * 40960 + win0_1.xsize (grid0.coords t) 0 :=
  (by decide +kernel : ∀ t : Fin grid0.N, win0_1.xsize (grid0.coords t) 0 = 40960 ∨ 2000000 ≤ t.val * 40960 + win0_1.xsize (grid0.coords t) 0)
theorem rows2 : ∀ t : Fin cfg0.N, win0_2.xsize (grid0.coords t) 0 = 40960 ∨ 2000000 ≤ t.val * 40960 + win0_2.xsize (grid0.coords t) 0 :=
  (by decide +kernel : ∀ t : Fin grid0.N, win0_2.xsize (grid0.coords t) 0 = 40960 ∨ 2000000 ≤ t.val * 40960 + win0_2.xsize (grid0.coords t) 0)
/-- The probability block is never cut across its 21 columns. -/
theorem cols0 : ∀ t : Fin cfg0.N, win0_0.xsize (grid0.coords t) 1 = 21 :=
  (by decide +kernel : ∀ t : Fin grid0.N, win0_0.xsize (grid0.coords t) 1 = 21)

/-- So a lane whose row number is below 2,000,000 is on the part of each block the fetch fills. -/
theorem kept0 (t : Fin cfg0.N) (r : Fin 40960) (h : t.val * 40960 + r.val < 2000000) :
    win0_0.moved (grid0.coords t) (ix2 r (0 : Fin 21)) = true := by
  rw [Window.moved_iff]; intro a
  match a with
  | ⟨0, _⟩ =>
    show r.val < win0_0.xsize (grid0.coords t) 0
    rcases rows0 t with e | e
    · rw [e]; exact r.isLt
    · omega
  | ⟨1, _⟩ => show (0 : ℕ) < win0_0.xsize (grid0.coords t) 1; rw [cols0 t]; omega
theorem kept1 (t : Fin cfg0.N) (r : Fin 40960) (h : t.val * 40960 + r.val < 2000000) :
    win0_1.moved (grid0.coords t) (ix1 r) = true := by
  rw [Window.moved_iff]; intro a
  match a with
  | ⟨0, _⟩ =>
    show r.val < win0_1.xsize (grid0.coords t) 0
    rcases rows1 t with e | e
    · rw [e]; exact r.isLt
    · omega
theorem kept2 (t : Fin cfg0.N) (r : Fin 40960) (h : t.val * 40960 + r.val < 2000000) :
    win0_2.moved (grid0.coords t) (ix1 r) = true := by
  rw [Window.moved_iff]; intro a
  match a with
  | ⟨0, _⟩ =>
    show r.val < win0_2.xsize (grid0.coords t) 0
    rcases rows2 t with e | e
    · rw [e]; exact r.isLt
    · omega

/-- On the filled part a buffer's contents do not depend on the filler. -/
theorem fill_kept {α : Type} (w : Window sig grid0) (i : grid0.Coords) (d d' : w.block.Idx → α) (g : (w.xblock i).Idx → α)
    (j : w.block.Idx) (h : w.moved i j = true) : w.fill i d g j = w.fill i d' g j := by
  unfold Window.fill; rw [dif_pos h, dif_pos h]

/-- The step's new total is the same whatever the three buffers hold below the rows inside the array. -/
theorem step_indep (c : Dev nD) (t : Fin cfg0.N) (d0 : S40960x21.Idx → Elt F .f32) (d1 : S40960.Idx → Elt F .i32)
    (d2 : S40960.Idx → Elt F .f32) (prev : Vec F S1x1 .f32) :
    k0_pay3 (grid0.coords t) (col0 (win0_0.fill (grid0.coords t) d0 (iblk m c 0 t))) (win0_1.fill (grid0.coords t) d1 (iblk m c 1 t))
        (win0_2.fill (grid0.coords t) d2 (iblk m c 2 t)) prev
      = k0_pay3 (grid0.coords t) (col0 (blk0 m c t)) (blk1 m c t) (blk2 m c t) prev :=
  pay3_congr t _ _ _ _ _ _ prev fun r hr =>
    ⟨by rw [col0_at, col0_at]; exact fill_kept win0_0 _ _ _ _ _ (kept0 t r hr),
     fill_kept win0_1 _ _ _ _ _ (kept1 t r hr), fill_kept win0_2 _ _ _ _ _ (kept2 t r hr)⟩

theorem tot_indep (c : Dev nD) (t : Fin cfg0.N) (d0 : S40960x21.Idx → Elt F .f32) (d1 : S40960.Idx → Elt F .i32)
    (d2 : S40960.Idx → Elt F .f32) (prev : Vec F S1x1 .f32) :
    k0_pay4 (grid0.coords t) (col0 (win0_0.fill (grid0.coords t) d0 (iblk m c 0 t))) (win0_1.fill (grid0.coords t) d1 (iblk m c 1 t))
        (win0_2.fill (grid0.coords t) d2 (iblk m c 2 t)) prev
      = k0_pay4 (grid0.coords t) (col0 (blk0 m c t)) (blk1 m c t) (blk2 m c t) prev := by
  unfold k0_pay4; rw [step_indep]

theorem out_indep (c : Dev nD) (t : Fin cfg0.N) (d0 : S40960x21.Idx → Elt F .f32) (d1 : S40960.Idx → Elt F .i32)
    (d2 : S40960.Idx → Elt F .f32) (prev : Vec F S1x1 .f32) :
    k0_pay5 (grid0.coords t) (col0 (win0_0.fill (grid0.coords t) d0 (iblk m c 0 t))) (win0_1.fill (grid0.coords t) d1 (iblk m c 1 t))
        (win0_2.fill (grid0.coords t) d2 (iblk m c 2 t)) prev
      = k0_pay5 (grid0.coords t) (col0 (blk0 m c t)) (blk1 m c t) (blk2 m c t) prev := by
  unfold k0_pay5; rw [step_indep]

/-! ## The body obligation, at a generic step -/

/-- Each window's current staging buffer at step `t`, as the pipeline passes it. -/
abbrev ms0 (t : Fin cfg0.N) : Memref sig .tc .vmem S40960x21 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S40960 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S40960 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x128 .f32 := win0_3.stage (cfg0.slots t 3)
abbrev hs3 (t : Fin cfg0.N) : (ms3 t).IsWhole := hstage0_3 ((cfg0.slots t 3).cast nbuf0_3)

/-- What the body is called with at step `t`: the invariant, what the core owes, and each window's buffer at what
    it then holds, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns: the inputs' buffers described on the rows inside the array only, the output tile's whole. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ (∃ d, owns (c : Thread nD τ) (ms1 t) fullShare (win0_1.fill (grid0.coords t) d (win0_1.cut (grid0.coords t) ((dats m 0 c).after 1 t))))
    ∗ (∃ d, owns (c : Thread nD τ) (ms2 t) fullShare (win0_2.fill (grid0.coords t) d (win0_2.cut (grid0.coords t) ((dats m 0 c).after 2 t))))
    ∗ owns (c : Thread nD τ) (ms3 t) fullShare ((dats m 0 c).after 3 t))

set_option maxHeartbeats 4000000 in
/-- The body at any step. The inputs' buffers hold their blocks over some filler; the step opens a row of the grid
    or continues one; the run of that case applies, the running total handed over at what the step before left (at
    anything when a row opens) and taken back at this step's total, which does not depend on the fillers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [after0, after1, after2, after3]
  rw [show win0_0.cut (grid0.coords t) (blk0 m c t) = iblk m c 0 t from win0_0.cut_fill _ _ _,
    show win0_1.cut (grid0.coords t) (blk1 m c t) = iblk m c 1 t from win0_1.cut_fill _ _ _,
    show win0_2.cut (grid0.coords t) (blk2 m c t) = iblk m c 2 t from win0_2.cut_fill _ _ _]
  have hN : t.val < 50 := lt_of_lt_of_eq t.isLt (show cfg0.N = 50 from N_0)
  rw [totAt_eq m c t]
  unfold outAt
  by_cases h0 : t.val % 25 = 0
  · rw [show carried m c t.val t.isLt = k0_pay1 from if_pos h0]
    have hpre : (dats m 0 c).Φ t.castSucc ⊢ (iprop(iprop((∃ d, owns (c : Thread nD τ) totM fullShare d)) ∗ (∃ r, prngReg c r)) : sProp 𝕄) := by
      rw [PhiS_castSucc m c t]
      by_cases hz : t.val = 0
      · rw [PhiS_zero m c _ _ hz, PhiA_eq]
      · rw [PhiS_pos m c _ _ hz]
        iintro ⟨HS, Hg⟩
        isplitl [HS]
        · iexists _; iexact HS
        iexact Hg
    iintro ⟨HΦ, Ho, ⟨%d0, H0⟩, ⟨%d1, H1⟩, ⟨%d2, H2⟩, ⟨%d3, H3⟩⟩
    ihave HΦ' := hpre $$ HΦ
    icases HΦ' with ⟨HS, Hg⟩
    iapply ((runOpen c (grid0.coords t) (ms0 t) (hs0 t) (ms1 t) (hs1 t) (ms2 t) (hs2 t) (ms3 t) (hs3 t) totM (Memref.isWhole_whole _) ((opensRow_iff t).mpr h0)
      (win0_0.fill (grid0.coords t) d0 (iblk m c 0 t)) (win0_1.fill (grid0.coords t) d1 (iblk m c 1 t)) (win0_2.fill (grid0.coords t) d2 (iblk m c 2 t))).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e5, H5⟩, ⟨%e6, H6⟩⟩
    isplitl [H6 Hg]
    · isplitl [H6]
      · unfold owns; iexists _; isplitr
        swap; · iexact H6
        ipureintro
        exact (View.read_writes_of_cover _ _ _ _ _ (coverT_open c _ _ _ _ _ _ _ _ _ _ _ _ _ _ _)).trans
          ((tot_open c _ _ _ _ _ _ _ _ _ _ _ _ _ _ _).trans (tot_indep m c t d0 d1 d2 _))
      iexact Hg
    isplitl [Ho]; · iexact Ho
    isplitl [H0]; · iexists d0; iexact H0
    isplitl [H1]; · iexists d1; iexact H1
    isplitl [H2]; · iexists d2; iexact H2
    unfold owns; iexists _; isplitr
    swap; · iexact H5
    ipureintro
    exact (View.read_writes_of_cover _ _ _ _ _ (coverO_open c _ _ _ _ _ _ _ _ _ _ _ _ _ _ _)).trans
      ((out_open c _ _ _ _ _ _ _ _ _ _ _ _ _ _ _).trans (out_indep m c t d0 d1 d2 _))
  · have hz : t.val ≠ 0 := fun h => h0 (by rw [h])
    rw [show carried m c t.val t.isLt = totAt m c (t.val - 1) (Nat.lt_of_le_of_lt (Nat.sub_le _ _) t.isLt) from if_neg h0]
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runNext c (grid0.coords t) (ms0 t) (hs0 t) (ms1 t) (hs1 t) (ms2 t) (hs2 t) (ms3 t) (hs3 t) totM (Memref.isWhole_whole _) (fun h => h0 ((opensRow_iff t).mp h))
      (win0_0.fill (grid0.coords t) d0 (iblk m c 0 t)) (win0_1.fill (grid0.coords t) d1 (iblk m c 1 t)) (win0_2.fill (grid0.coords t) d2 (iblk m c 2 t))
      (totAt m c (t.val - 1) (Nat.lt_of_le_of_lt (Nat.sub_le _ _) t.isLt))).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e5, H5⟩, ⟨%e6, H6⟩⟩
    isplitl [H6 Hg]
    · isplitl [H6]
      · unfold owns; iexists _; isplitr
        swap; · iexact H6
        ipureintro
        exact (View.read_writes_of_cover _ _ _ _ _ (coverT_next c _ _ _ _ _ _ _ _ _ _ _ _ _ _ _ _)).trans
          ((tot_next c _ _ _ _ _ _ _ _ _ _ _ _ _ _ _ _).trans (tot_indep m c t d0 d1 d2 _))
      iexact Hg
    isplitl [Ho]; · iexact Ho
    isplitl [H0]; · iexists d0; iexact H0
    isplitl [H1]; · iexists d1; iexact H1
    isplitl [H2]; · iexists d2; iexact H2
    unfold owns; iexists _; isplitr
    swap; · iexact H5
    ipureintro
    exact (View.read_writes_of_cover _ _ _ _ _ (coverO_next c _ _ _ _ _ _ _ _ _ _ _ _ _ _ _ _)).trans
      ((out_next c _ _ _ _ _ _ _ _ _ _ _ _ _ _ _ _).trans (out_indep m c t d0 d1 d2 _))

/-- The library's body obligation, at every step. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first step, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last step the invariant gives it back, the total's contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨HS, Hg⟩
  isplitl [HS]
  · iexists _; iexact HS
  iexact Hg

/-! ## The run and the frame -/

set_option backward.isDefEq.respectTransparency.types false in
/-- Every weakly fair execution of @main terminates, and every final state has each array of the pipeline at what the
    write-backs leave and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := body_obligation m) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: the program runs to the end, faults nowhere and leaves its nine arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Body

end
-- ==== Proof.Spec.lean ====
/-
  The mathematics both programs share, stated once over the extended reals and importing neither program.

  A region of interest (row `j` of the 2,000,000) contributes to the background loss only when its label is
  zero, and then contributes its weight times the logarithm of its class-0 probability: `term`. The background
  sum `bgSum` is the sum of these over all rows. The kernel reaches the same number another way: it walks the
  rows in 49 blocks of 40,960 (the last one short: 48 · 40960 + 33920 = 2,000,000), adds each block's terms
  to a running total that restarts after 25 blocks, and on lanes it masks out computes `0 · log 1` instead of
  skipping them. Addition on the extended reals is commutative and associative, so regrouping a finite sum is
  free; `0 · log 1 = 0 · 0 = 0`; and a product with the factor `0` is `0` whatever the other factor
  (`⊤ · 0 = 0` on the extended reals), which is what the switched-off background term needs.
-/
import Idealize.ShloMosaic.PureOps.Ideal
import Idealize.ShloMosaic.PureOps.Ideal.Laws
import Idealize.ShloMosaic.Lib.ValueIdx
import Mathlib.Algebra.BigOperators.Intervals
import Mathlib.Algebra.BigOperators.Fin
import Mathlib.Data.EReal.Operations
import Mathlib.Analysis.SpecialFunctions.Log.Basic

noncomputable section

namespace Cert.PclSpec

open Idealize.ShloMosaic Idealize.ShloMosaic.ValueIdx

/-- The probability table, the labels and the weights, as index-to-value functions over their literal shapes. -/
abbrev Probs := (⟨2, ![2000000, 21]⟩ : Shape).Idx → EReal
abbrev Labels := (⟨1, ![2000000]⟩ : Shape).Idx → BitVec 32
abbrev Weights := (⟨1, ![2000000]⟩ : Shape).Idx → EReal

/-- Row `j`'s contribution to the background sum: its weight times the log of its class-0 probability when its
    label is zero, nothing otherwise. -/
def term (p : Probs) (lbl : Labels) (w : Weights) (j : Fin 2000000) : EReal :=
  if lbl (ix1 j) = 0#32 then w (ix1 j) * Ideal.log (p (ix2 j (0 : Fin 21))) else 0

/-- The background sum: every row's contribution. -/
def bgSum (p : Probs) (lbl : Labels) (w : Weights) : EReal := ∑ j : Fin 2000000, term p lbl w j

/-- What block `t` of 40,960 consecutive rows contributes: the terms of its rows that lie inside the array. -/
def blockSum (p : Probs) (lbl : Labels) (w : Weights) (t : ℕ) : EReal :=
  ∑ r : Fin 40960, if h : t * 40960 + r.val < 2000000 then term p lbl w ⟨t * 40960 + r.val, h⟩ else 0

/-- The logarithm of one is zero. -/
theorem log_one : Ideal.log ((1 : ℝ) : EReal) = 0 := by
  show (if (1 : ℝ) ≤ 0 then (⊥ : EReal) else ((Real.log 1 : ℝ) : EReal)) = 0
  rw [if_neg (by norm_num), Real.log_one, EReal.coe_zero]

/-- A sum over `T` consecutive blocks of `B` indices is the sum over the first `T · B` indices. -/
theorem sum_blocks (g : ℕ → EReal) (B : ℕ) : ∀ T : ℕ,
    ∑ t ∈ Finset.range T, ∑ r ∈ Finset.range B, g (t * B + r) = ∑ n ∈ Finset.range (T * B), g n
  | 0 => by rw [Finset.sum_range_zero, Nat.zero_mul, Finset.sum_range_zero]
  | T + 1 => by
    rw [Finset.sum_range_succ, sum_blocks g B T, Nat.succ_mul, Finset.sum_range_add]

/-- On a lane the mask clears the kernel multiplies the weight's stand-in `0` by the log of the probability's
    stand-in `1`: `0 · log 1 = 0`. On a lane it keeps, it multiplies the weight by the log of the probability. -/
theorem masked_lane (c : Prop) [Decidable c] (x wv : EReal) :
    (if c then wv else 0) * Ideal.log (if c then x else ((1 : ℝ) : EReal)) = if c then wv * Ideal.log x else 0 := by
  by_cases hc : c
  · rw [if_pos hc, if_pos hc, if_pos hc]
  · rw [if_neg hc, if_neg hc, if_neg hc, log_one, zero_mul]

/-- Fifty blocks of 40,960 rows cover rows 0 ‥ 2,047,999; the terms of those below 2,000,000, block by block, are
    all the terms, each once. -/
theorem sum_blockSum (p : Probs) (lbl : Labels) (w : Weights) :
    ∑ t ∈ Finset.range 50, blockSum p lbl w t = bgSum p lbl w := by
  -- every row's term, extended by zero past the array's end
  let g : ℕ → EReal := fun n => if h : n < 2000000 then term p lbl w ⟨n, h⟩ else 0
  have hb : ∀ t, blockSum p lbl w t = ∑ r ∈ Finset.range 40960, g (t * 40960 + r) := by
    intro t
    exact Fin.sum_univ_eq_sum_range (fun r => g (t * 40960 + r)) 40960
  rw [Finset.sum_congr rfl (fun t _ => hb t), sum_blocks g 40960 50]
  have hsplit : 50 * 40960 = 2000000 + 48000 := by norm_num
  rw [hsplit, Finset.sum_range_add]
  have tail : ∑ x ∈ Finset.range 48000, g (2000000 + x) = 0 := by
    apply Finset.sum_eq_zero
    intro x _
    show (if h : 2000000 + x < 2000000 then term p lbl w ⟨2000000 + x, h⟩ else 0) = 0
    rw [dif_neg (by omega)]
  rw [tail, add_zero]
  unfold bgSum
  rw [← Fin.sum_univ_eq_sum_range g 2000000]
  apply Finset.sum_congr rfl
  intro j _
  show (if h : j.val < 2000000 then term p lbl w ⟨j.val, h⟩ else 0) = term p lbl w j
  rw [dif_pos j.isLt]

/-- A running total that restarts at every 25th step and otherwise adds the step's amount to what the step before
    left: after step `25 q + k` it is the sum of the amounts of steps `25 q ‥ 25 q + k`. -/
theorem restart_total (a bs : ℕ → EReal)
    (h : ∀ t, a t = (if t % 25 = 0 then 0 else a (t - 1)) + bs t) (q k : ℕ) (hk : k < 25) :
    a (25 * q + k) = ∑ s ∈ Finset.range (k + 1), bs (25 * q + s) := by
  induction k with
  | zero =>
    have e1 : (25 * q + 0) % 25 = 0 := by omega
    rw [h (25 * q + 0), if_pos e1, zero_add, Finset.sum_range_succ, Finset.sum_range_zero, zero_add]
  | succ k ih =>
    have e1 : ¬ (25 * q + (k + 1)) % 25 = 0 := by omega
    have e2 : 25 * q + (k + 1) - 1 = 25 * q + k := by omega
    rw [h (25 * q + (k + 1)), if_neg e1, e2, ih (by omega),
      Finset.sum_range_succ (fun s => bs (25 * q + s)) (k + 1)]

/-- The two restarts' totals (after steps 24 and 49) add up to all fifty amounts. -/
theorem two_totals (a bs : ℕ → EReal)
    (h : ∀ t, a t = (if t % 25 = 0 then 0 else a (t - 1)) + bs t) :
    a 24 + a 49 = ∑ t ∈ Finset.range 50, bs t := by
  have h1 : a 24 = ∑ s ∈ Finset.range 25, bs s := by
    have := restart_total a bs h 0 24 (by norm_num)
    simpa using this
  have h2 : a 49 = ∑ s ∈ Finset.range 25, bs (25 + s) := by
    have := restart_total a bs h 1 24 (by norm_num)
    simpa using this
  rw [h1, h2, show (50 : ℕ) = 25 + 25 from rfl, Finset.sum_range_add]

/-- The reference masks every row with the image-level switch `B` as well: with the switch on its sum is the
    background sum, with it off every summand is zero. -/
theorem switched_sum (p : Probs) (lbl : Labels) (w : Weights) (B : Prop) [Decidable B] :
    (∑ j : Fin 2000000, if lbl (ix1 j) = 0#32 ∧ B then w (ix1 j) * Ideal.log (p (ix2 j (0 : Fin 21))) else 0)
      = if B then bgSum p lbl w else 0 := by
  by_cases hB : B
  · rw [if_pos hB]
    unfold bgSum term
    apply Finset.sum_congr rfl
    intro j _
    by_cases hl : lbl (ix1 j) = 0#32
    · rw [if_pos ⟨hl, hB⟩, if_pos hl]
    · rw [if_neg (fun hh => hl hh.1), if_neg hl]
  · rw [if_neg hB]
    apply Finset.sum_eq_zero
    intro j _
    rw [if_neg (fun hh => hB hh.2)]

/-- The kernel applies the switch after summing, as a factor `1` or `0` on the negated sum; the reference applies
    it inside the sum and negates afterwards. The two agree: `(-S) · 1 = -S`, and `(-S) · 0 = 0 = -0` for every
    extended real `S`, the infinite ones included. -/
theorem switch_after (S : EReal) (B : Prop) [Decidable B] :
    (-S) * (if B then ((1 : ℝ) : EReal) else ((0 : ℝ) : EReal)) = -(if B then S else 0) := by
  by_cases hB : B
  · rw [if_pos hB, if_pos hB, EReal.coe_one, mul_one]
  · rw [if_neg hB, if_neg hB, EReal.coe_zero, mul_zero, neg_zero]

end Cert.PclSpec

end
-- ==== Proof.PayIdeal.lean ====
/-
  One grid step's new running total over the extended reals: the old total plus, over the step's 40,960 lanes, the
  weight times the log of the class-0 probability on the lanes whose row is below 2,000,000 and whose label is zero,
  and nothing on the others.
-/
import proofs.«424507_j10058813407513_4_alg».proof.Proof.PayCongr
import proofs.«424507_j10058813407513_4_alg».proof.Proof.Spec
import Idealize.ShloMosaic.PureOps.Ideal.Laws

noncomputable section

namespace Cert.KernelIdeal.Payload

open Cert.KernelIdeal Cert.KernelIdeal.Gen Idealize.ShloMosaic Idealize.ShloMosaic.ValueIdx

/-! ## The constants and the layout steps -/

/-- The word `0x3F800000` is the real one. -/
theorem ofBits_one_f32 : Ideal.ofBits .f32 0x3F800000#32 = ((1 : ℝ) : EReal) := by
  have h : (8388608 : ℝ) * ((2 : ℝ) ^ 23)⁻¹ = 1 := by norm_num
  simp [Ideal.ofBits, Ideal.ieee]
  exact_mod_cast h

/-- A lane reduction of a 1 × 40960 vector from zero, over the extended reals: the sum of its 40,960 entries. -/
theorem laneSum (y : FVec Ideal S1x40960 .f32) :
    multiReduction (F := Ideal) .add [1] S1 y 0x00000000#32 reduces_S1x40960_S1 (.inl rfl) rfl (ix1 (0 : Fin 1))
      = ∑ r : Fin 40960, y (ix2 (0 : Fin 1) r) := by
  refine (Ideal.multiReduction_add_single y 0x00000000#32 reduces_S1x40960_S1 (.inl rfl) rfl (ix1 (0 : Fin 1))).trans ?_
  refine Finset.sum_congr rfl fun k _ => congrArg y ?_
  funext a
  match a with
  | ⟨0, _⟩ => exact Fin.ext rfl
  | ⟨1, _⟩ => exact Fin.ext rfl

/-- The one entry of a one-lane vector viewed 1 × 1. -/
theorem extract00_apply {α : Type} (m : S1.Idx → α) :
    extractAt ![0, 0] (shapeCast S1x1 m shapeCasts_S1_S1x1) inpos_S1x1_p0_0 = m (ix1 (0 : Fin 1)) := by
  refine shapeCast_apply m shapeCasts_S1_S1x1 _ (ix1 (0 : Fin 1)) ?_
  rw [Shape.rowMajor_val_one, Shape.rowMajor_val_two]
  rfl

/-- A vector of lanes viewed as one row, at column `r`. -/
theorem row_apply {α : Type} (x : S40960.Idx → α) (r : Fin 40960) :
    shapeCast S1x40960 x shapeCasts_S40960_S1x40960 (ix2 (0 : Fin 1) r) = x (ix1 r) := by
  refine shapeCast_apply x shapeCasts_S40960_S1x40960 (ix2 (0 : Fin 1) r) (ix1 r) ?_
  rw [Shape.rowMajor_val_one, Shape.rowMajor_val_two]
  show r.val = 0 * 40960 + r.val
  omega

/-! ## The step at its one entry -/

/-- The sum-and-add half of the step, read at its one entry: the old total plus the sum of the lane products. -/
theorem stepTotal_apply (v25 : FVec Ideal S1x1 .f32) (x : FVec Ideal S40960 .f32) :
    stepTotal (F := Ideal) v25 x (ix2 (0 : Fin 1) (0 : Fin 1)) = v25 (ix2 (0 : Fin 1) (0 : Fin 1)) + ∑ r : Fin 40960, x (ix1 r) := by
  unfold stepTotal
  rw [addf_apply, broadcast_apply, extract00_apply, laneSum]
  exact congrArg (fun z : EReal => v25 (ix2 (0 : Fin 1) (0 : Fin 1)) + z) (Finset.sum_congr rfl fun r _ => row_apply x r)

/-- The step's new total, read at its one entry. -/
theorem pay3_ideal (t : Fin grid0.N) (v5 : Vec Ideal S40960x1 .f32) (v7 : Vec Ideal S40960 .i32)
    (v8 : Vec Ideal S40960 .f32) (v25 : Vec Ideal S1x1 .f32) :
    k0_pay3 (F := Ideal) (grid0.coords t) v5 v7 v8 v25 (ix2 (0 : Fin 1) (0 : Fin 1))
      = v25 (ix2 (0 : Fin 1) (0 : Fin 1))
        + ∑ r : Fin 40960, (if t.val * 40960 + r.val < 2000000 ∧ v7 (ix1 r) = 0#32
            then v8 (ix1 r) * Ideal.log (v5 (ix2 r (0 : Fin 1))) else 0) := by
  rw [k0_pay3_eq, stepTotal_apply]
  refine congrArg (fun z : EReal => v25 (ix2 (0 : Fin 1) (0 : Fin 1)) + z) ?_
  refine Finset.sum_congr rfl fun r _ => ?_
  show select (laneMask (grid0.coords t) v7) v8 (broadcast S40960 (Ideal.ofBits .f32 0x00000000#32)) (ix1 r)
      * Ideal.log (select (laneMask (grid0.coords t) v7) (shapeCast S40960 v5 shapeCasts_S40960x1_S40960)
          (broadcast S40960 (Ideal.ofBits .f32 0x3F800000#32)) (ix1 r)) = _
  rw [select_laneMask_apply, select_laneMask_apply, col0_apply, ofBits_one_f32, Ideal.ofBits_zero_f32]
  exact Cert.PclSpec.masked_lane _ _ _

end Cert.KernelIdeal.Payload

end
-- ==== Proof.KernelTotal.lean ====
/-
  What the region leaves in its result array, over the extended reals.

  Entry (0,0,0) of the result array is the running total after step 24 and entry (1,0,0) the one after step 49: the
  output tile is written back only at the last step of each row of the grid, and it holds the total broadcast. Step
  `t`'s total is the total before it (zero when a row opens) plus the terms of the rows `t · 40960 + r` below
  2,000,000 — those lanes lie on the part of block `min t 48` inside the arrays, where the buffers hold the arrays'
  own rows, and `min t 48 = t` there. So the two entries add up to all 2,000,000 rows' terms: the background sum.
-/
import proofs.«424507_j10058813407513_4_alg».proof.Proof.BodyData
import proofs.«424507_j10058813407513_4_alg».proof.Proof.PayIdeal
import proofs.«424507_j10058813407513_4_alg».proof.Proof.Spec

set_option maxRecDepth 16384

noncomputable section

namespace Cert.KernelIdeal.Total

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal.Body Cert.KernelIdeal.Payload Idealize.ShloMosaic.ValueIdx

variable (m : (ℓ : Loc nD τ sig) → Buf (Elt Ideal) ℓ)

/-! ## The buffers hold the arrays' rows on the kept lanes -/

/-- Up to step 48 the block index is the step's number (and the probability block starts at column 0). -/
theorem index0 : ∀ t : Fin cfg0.N, t.val ≤ 48 → win0_0.index t 0 = t.val ∧ win0_0.index t 1 = 0 :=
  (by decide +kernel : ∀ t : Fin grid0.N, t.val ≤ 48 → win0_0.index t 0 = t.val ∧ win0_0.index t 1 = 0)
theorem index1 : ∀ t : Fin cfg0.N, t.val ≤ 48 → win0_1.index t 0 = t.val :=
  (by decide +kernel : ∀ t : Fin grid0.N, t.val ≤ 48 → win0_1.index t 0 = t.val)
theorem index2 : ∀ t : Fin cfg0.N, t.val ≤ 48 → win0_2.index t 0 = t.val :=
  (by decide +kernel : ∀ t : Fin grid0.N, t.val ≤ 48 → win0_2.index t 0 = t.val)

theorem blk0_at (c : Dev nD) (t : Fin cfg0.N) (r : Fin 40960) (h : t.val * 40960 + r.val < 2000000) :
    blk0 (F := Ideal) m c t (ix2 r (0 : Fin 21)) = m ((c : Thread nD τ).loc main_arg0) (ix2 ⟨t.val * 40960 + r.val, h⟩ (0 : Fin 21)) := by
  have ht : t.val ≤ 48 := by omega
  unfold blk0 Window.fill
  rw [dif_pos (kept0 t r h)]
  unfold iblk
  rw [View.read_apply]
  show V m c main_arg0 _ = V m c main_arg0 _
  refine congrArg _ (funext fun a => Fin.ext ?_)
  match a with
  | ⟨0, _⟩ =>
    show win0_0.index t 0 * 40960 + 1 * r.val = t.val * 40960 + r.val
    rw [(index0 t ht).1]; omega
  | ⟨1, _⟩ =>
    show win0_0.index t 1 * 21 + 1 * 0 = 0
    rw [(index0 t ht).2]

theorem blk1_at (c : Dev nD) (t : Fin cfg0.N) (r : Fin 40960) (h : t.val * 40960 + r.val < 2000000) :
    blk1 (F := Ideal) m c t (ix1 r) = m ((c : Thread nD τ).loc main_arg1) (ix1 ⟨t.val * 40960 + r.val, h⟩) := by
  have ht : t.val ≤ 48 := by omega
  unfold blk1 Window.fill
  rw [dif_pos (kept1 t r h)]
  unfold iblk
  rw [View.read_apply]
  show V m c main_arg1 _ = V m c main_arg1 _
  refine congrArg _ (funext fun a => Fin.ext ?_)
  match a with
  | ⟨0, _⟩ =>
    show win0_1.index t 0 * 40960 + 1 * r.val = t.val * 40960 + r.val
    rw [index1 t ht]; omega

theorem blk2_at (c : Dev nD) (t : Fin cfg0.N) (r : Fin 40960) (h : t.val * 40960 + r.val < 2000000) :
    blk2 (F := Ideal) m c t (ix1 r) = m ((c : Thread nD τ).loc main_arg2) (ix1 ⟨t.val * 40960 + r.val, h⟩) := by
  have ht : t.val ≤ 48 := by omega
  unfold blk2 Window.fill
  rw [dif_pos (kept2 t r h)]
  unfold iblk
  rw [View.read_apply]
  show V m c main_arg2 _ = V m c main_arg2 _
  refine congrArg _ (funext fun a => Fin.ext ?_)
  match a with
  | ⟨0, _⟩ =>
    show win0_2.index t 0 * 40960 + 1 * r.val = t.val * 40960 + r.val
    rw [index2 t ht]; omega

/-! ## One step's total -/

/-- Lane `r` of step `t` contributes row `t · 40960 + r`'s term when that row is inside the arrays, else nothing. -/
theorem lane_term (c : Dev nD) (t : Fin cfg0.N) (r : Fin 40960) :
    (if t.val * 40960 + r.val < 2000000 ∧ blk1 (F := Ideal) m c t (ix1 r) = 0#32
        then blk2 (F := Ideal) m c t (ix1 r) * Ideal.log (col0 (blk0 (F := Ideal) m c t) (ix2 r (0 : Fin 1))) else 0)
      = if h : t.val * 40960 + r.val < 2000000 then
          PclSpec.term (m ((c : Thread nD τ).loc main_arg0)) (m ((c : Thread nD τ).loc main_arg1)) (m ((c : Thread nD τ).loc main_arg2)) ⟨t.val * 40960 + r.val, h⟩
        else 0 := by
  by_cases h : t.val * 40960 + r.val < 2000000
  · rw [dif_pos h, col0_at, blk0_at m c t r h, blk1_at m c t r h, blk2_at m c t r h]
    unfold PclSpec.term
    simp only [h, true_and]
  · rw [dif_neg h, if_neg (fun hh => h hh.1)]

/-- The cleared total is zero. -/
theorem cleared : (k0_pay1 (F := Ideal)) (ix2 (0 : Fin 1) (0 : Fin 1)) = 0 := by
  unfold k0_pay1
  rw [shapeCast_self]
  exact Ideal.ofBits_zero_f32

/-- Step `t`'s total: what it carried in plus its block's terms. -/
theorem step_total (c : Dev nD) (t : Fin cfg0.N) :
    totAt (F := Ideal) m c t.val t.isLt (ix2 (0 : Fin 1) (0 : Fin 1))
      = (if t.val % 25 = 0 then 0 else totAt (F := Ideal) m c (t.val - 1) (Nat.lt_of_le_of_lt (Nat.sub_le _ _) t.isLt) (ix2 (0 : Fin 1) (0 : Fin 1)))
        + PclSpec.blockSum (m ((c : Thread nD τ).loc main_arg0)) (m ((c : Thread nD τ).loc main_arg1)) (m ((c : Thread nD τ).loc main_arg2)) t.val := by
  rw [totAt_eq]
  unfold k0_pay4
  rw [shapeCast_self, pay3_ideal]
  have e1 : carried (F := Ideal) m c t.val t.isLt (ix2 (0 : Fin 1) (0 : Fin 1))
      = (if t.val % 25 = 0 then 0 else totAt (F := Ideal) m c (t.val - 1) (Nat.lt_of_le_of_lt (Nat.sub_le _ _) t.isLt) (ix2 (0 : Fin 1) (0 : Fin 1))) := by
    unfold carried
    split
    · exact cleared
    · rfl
  have e2 : (∑ r : Fin 40960, (if t.val * 40960 + r.val < 2000000 ∧ blk1 (F := Ideal) m c t (ix1 r) = 0#32
        then blk2 (F := Ideal) m c t (ix1 r) * Ideal.log (col0 (blk0 (F := Ideal) m c t) (ix2 r (0 : Fin 1))) else 0))
      = PclSpec.blockSum (m ((c : Thread nD τ).loc main_arg0)) (m ((c : Thread nD τ).loc main_arg1)) (m ((c : Thread nD τ).loc main_arg2)) t.val := by
    unfold PclSpec.blockSum
    exact Finset.sum_congr rfl (fun r _ => lane_term m c t r)
  rw [e1, e2]

/-! ## The totals after steps 24 and 49 -/

/-- A running total that restarts every 25 steps, for any step amounts. -/
def runTot (bs : ℕ → EReal) : ℕ → EReal
  | 0 => 0 + bs 0
  | n + 1 => (if (n + 1) % 25 = 0 then 0 else runTot bs n) + bs (n + 1)

theorem runTot_eq (bs : ℕ → EReal) (t : ℕ) : runTot bs t = (if t % 25 = 0 then 0 else runTot bs (t - 1)) + bs t := by
  cases t with
  | zero => show 0 + bs 0 = _; rw [if_pos (Nat.zero_mod 25)]
  | succ n => rfl

theorem step_total' (c : Dev nD) (n : ℕ) (hn : n < cfg0.N) :
    totAt (F := Ideal) m c n hn (ix2 (0 : Fin 1) (0 : Fin 1))
      = (if n % 25 = 0 then 0 else totAt (F := Ideal) m c (n - 1) (Nat.lt_of_le_of_lt (Nat.sub_le _ _) hn) (ix2 (0 : Fin 1) (0 : Fin 1)))
        + PclSpec.blockSum (m ((c : Thread nD τ).loc main_arg0)) (m ((c : Thread nD τ).loc main_arg1)) (m ((c : Thread nD τ).loc main_arg2)) n :=
  step_total m c ⟨n, hn⟩

theorem tot_eq_runTot (c : Dev nD) (n : ℕ) (hn : n < cfg0.N) :
    totAt (F := Ideal) m c n hn (ix2 (0 : Fin 1) (0 : Fin 1))
      = runTot (PclSpec.blockSum (m ((c : Thread nD τ).loc main_arg0)) (m ((c : Thread nD τ).loc main_arg1)) (m ((c : Thread nD τ).loc main_arg2))) n := by
  induction n with
  | zero =>
    rw [step_total' m c 0 hn, runTot_eq, if_pos (Nat.zero_mod 25), if_pos (Nat.zero_mod 25)]
  | succ n ih =>
    rw [step_total' m c (n + 1) hn, runTot_eq]
    by_cases h : (n + 1) % 25 = 0
    · rw [if_pos h, if_pos h]
    · rw [if_neg h, if_neg h]
      exact congrArg (fun z : EReal => z + _) (ih (Nat.lt_of_succ_lt hn))

/-- The two rows' totals add up to the background sum. -/
theorem totals_sum (c : Dev nD) (h24 : 24 < cfg0.N) (h49 : 49 < cfg0.N) :
    totAt (F := Ideal) m c 24 h24 (ix2 (0 : Fin 1) (0 : Fin 1)) + totAt (F := Ideal) m c 49 h49 (ix2 (0 : Fin 1) (0 : Fin 1))
      = PclSpec.bgSum (m ((c : Thread nD τ).loc main_arg0)) (m ((c : Thread nD τ).loc main_arg1)) (m ((c : Thread nD τ).loc main_arg2)) := by
  rw [tot_eq_runTot, tot_eq_runTot, PclSpec.two_totals _ _ (runTot_eq _), PclSpec.sum_blockSum]

/-! ## The result array -/

/-- The output tile after step `t` holds that step's total at every entry. -/
theorem outAt_apply (c : Dev nD) (t : Fin cfg0.N) (a : Fin 8) (b : Fin 128) :
    outAt (F := Ideal) m c t (ix3 (0 : Fin 1) a b) = totAt (F := Ideal) m c t.val t.isLt (ix2 (0 : Fin 1) (0 : Fin 1)) := by
  rw [totAt_eq]
  unfold outAt k0_pay5 k0_pay4
  rw [shapeCast_self]
  rw [broadcastTo_apply _ _ (ix3 (0 : Fin 1) a b) (ix3 (0 : Fin 1) (0 : Fin 1) (0 : Fin 1)) (fun x => by fin_cases x <;> rfl)]
  rw [shapeCast_self]
  exact (shapeCast_addUnit_apply ![1, 1] _ _ _).trans (congrArg _ (funext fun x => by fin_cases x <;> rfl))

/-- The two steps that write the output tile back (24 and 49) write different blocks of the result array. -/
theorem flushIdx : ∀ t t' : Fin cfg0.N, t.val % 25 = 24 → t'.val % 25 = 24 → t ≠ t' → win0_3.index t ≠ win0_3.index t' :=
  (by decide +kernel : ∀ t t' : Fin grid0.N, t.val % 25 = 24 → t'.val % 25 = 24 → t ≠ t' → win0_3.index t ≠ win0_3.index t')

/-- So each of those blocks of the result array ends holding what its step wrote back: that step's output tile. -/
theorem result_entry (c : Dev nD) (t : Fin cfg0.N) (ht : t.val % 25 = 24) (a : Fin 8) (b : Fin 128) :
    (dats (F := Ideal) m 0 c).arrAt 3 cfg0.N (((cfg0.win 3).blk t).view.emb (ix3 (0 : Fin 1) a b))
      = outAt (F := Ideal) m c t (ix3 (0 : Fin 1) a b) := by
  refine ((dats (F := Ideal) m 0 c).arrAt_emb_eq_flushed 3
    (fun t t' hf hf' hne => win0_3.disjoint_blk (flushIdx t t' ((flush0_3 t).mp hf) ((flush0_3 t').mp hf') hne))
    t ((flush0_3 t).mpr ht) (ix3 (0 : Fin 1) a b)).trans ?_
  rw [cast_eq]
  show (dats (F := Ideal) m 0 c).after 3 t _ = _
  rw [after3]
  rfl

/-- The two writing steps, as points of the grid. -/
theorem lt24 : 24 < cfg0.N := by rw [show cfg0.N = 50 from N_0]; omega
theorem lt49 : 49 < cfg0.N := by rw [show cfg0.N = 50 from N_0]; omega
abbrev t24 : Fin cfg0.N := ⟨24, lt24⟩
abbrev t49 : Fin cfg0.N := ⟨49, lt49⟩

/-- Step 24 writes block (0,0,0) of the result array and step 49 block (1,0,0). -/
theorem emb24 :
    ((cfg0.win 3).blk t24).view.emb (ix3 (0 : Fin 1) (0 : Fin 8) (0 : Fin 128)) = ix3 (0 : Fin 2) (0 : Fin 8) (0 : Fin 128) := by
  funext x; apply Fin.ext
  match x with
  | ⟨0, _⟩ => show win0_3.index t24 0 * 1 + 1 * 0 = 0; decide +kernel
  | ⟨1, _⟩ => show win0_3.index t24 1 * 8 + 1 * 0 = 0; decide +kernel
  | ⟨2, _⟩ => show win0_3.index t24 2 * 128 + 1 * 0 = 0; decide +kernel

theorem emb49 :
    ((cfg0.win 3).blk t49).view.emb (ix3 (0 : Fin 1) (0 : Fin 8) (0 : Fin 128)) = ix3 (1 : Fin 2) (0 : Fin 8) (0 : Fin 128) := by
  funext x; apply Fin.ext
  match x with
  | ⟨0, _⟩ => show win0_3.index t49 0 * 1 + 1 * 0 = 1; decide +kernel
  | ⟨1, _⟩ => show win0_3.index t49 1 * 8 + 1 * 0 = 0; decide +kernel
  | ⟨2, _⟩ => show win0_3.index t49 2 * 128 + 1 * 0 = 0; decide +kernel

/-- The region's result array after the run, at its literal type. -/
abbrev resArr (c : Dev nD) : (⟨S2x8x128, .f32⟩ : BufTy).Contents (Elt Ideal) := (dats (F := Ideal) m 0 c).arrAt 3 cfg0.N

theorem entry0 (c : Dev nD) :
    resArr m c (ix3 (0 : Fin 2) (0 : Fin 8) (0 : Fin 128)) = totAt (F := Ideal) m c 24 lt24 (ix2 (0 : Fin 1) (0 : Fin 1)) :=
  (congrArg (resArr m c) emb24.symm).trans
    ((result_entry m c t24 (by decide) 0 0).trans (outAt_apply m c t24 0 0))

theorem entry1 (c : Dev nD) :
    resArr m c (ix3 (1 : Fin 2) (0 : Fin 8) (0 : Fin 128)) = totAt (F := Ideal) m c 49 lt49 (ix2 (0 : Fin 1) (0 : Fin 1)) :=
  (congrArg (resArr m c) emb49.symm).trans
    ((result_entry m c t49 (by decide) 0 0).trans (outAt_apply m c t49 0 0))

/-- Entries (0,0,0) and (1,0,0) of the region's result array add up to the background sum. -/
theorem region_result (c : Dev nD) :
    resArr m c (ix3 (0 : Fin 2) (0 : Fin 8) (0 : Fin 128)) + resArr m c (ix3 (1 : Fin 2) (0 : Fin 8) (0 : Fin 128))
      = PclSpec.bgSum (m ((c : Thread nD τ).loc main_arg0)) (m ((c : Thread nD τ).loc main_arg1)) (m ((c : Thread nD τ).loc main_arg2)) := by
  rw [entry0 m c, entry1 m c]
  exact totals_sum m c lt24 lt49

end Cert.KernelIdeal.Total

end
-- ==== Proof.RefSide.lean ====
/-
  The reference side: what the plain-jnp program computes, read off its run one operation at a time.

  The program's background loss is `-(0 + ∑ over the 2,000,000 rows of (label = 0 and im_labels[0] ≠ 0 ? weight · log p[row, 0] : 0))`.
  Row by row the summand is the shared specification's term under the image-level switch `im_labels[0] ≠ 0`; the
  sum over the rank-1 index set is the sum over its coordinate range; and with the switch pulled out of the sum
  (`PclSpec.switched_sum`) the loss is minus the background sum when the switch is on and minus zero when it is off.
-/
import proofs.«424507_j10058813407513_4_alg».proof.Defs
import proofs.«424507_j10058813407513_4_alg».proof.Proof.Gen.ReferenceIdeal.Run
import proofs.«424507_j10058813407513_4_alg».proof.Proof.Gen.ReferenceIdeal.Read
import proofs.«424507_j10058813407513_4_alg».proof.Proof.Gen.Pre_finite_inputs
import proofs.«424507_j10058813407513_4_alg».proof.Proof.Spec
import Idealize.ShloMosaic.Lib.ValueIdx
import Idealize.ShloMosaic.Lib.ValueIdxRank1
import Idealize.ShloMosaic.Lib.Pipeline.Value
import Idealize.ShloMosaic.PureOps.Ideal.Laws

noncomputable section

namespace Cert.RefSide

open Cert.ReferenceIdeal Cert.ReferenceIdeal.Gen Idealize.ShloMosaic Idealize.ShloMosaic.TcCoe Idealize.SL.Sem
  Idealize.ShloMosaic.StableHlo Idealize.ShloMosaic.ValueIdx

/-! ## Words: the row mask -/

/-- A boolean as a one-bit word is `1` exactly when it is true. -/
theorem ofBool_one_iff (p : Bool) : BitVec.ofBool p = 1#1 ↔ p = true := by cases p <;> decide

/-- The comparison "equal", as a one-bit word, is `1` exactly when the two words are equal. -/
theorem cmpi_eq_one_iff (a b : BitVec 32) : IntOp.cmpi .eq a b = 1#1 ↔ a = b := by
  show BitVec.ofBool (a == b) = 1#1 ↔ a = b
  rw [ofBool_one_iff, beq_iff_eq]

/-- The comparison "not equal", as a one-bit word, is `1` exactly when the two words differ. -/
theorem cmpi_ne_one_iff (a b : BitVec 32) : IntOp.cmpi .ne a b = 1#1 ↔ a ≠ b := by
  show BitVec.ofBool (a != b) = 1#1 ↔ a ≠ b
  rw [ofBool_one_iff, bne_iff_ne]

/-- The bitwise "and" of two one-bit words is `1` exactly when both are. -/
theorem andi_one_iff (x y : BitVec 1) : IntOp.andi x y = 1#1 ↔ x = 1#1 ∧ y = 1#1 := by
  rcases BitVec.eq_zero_or_eq_one x with rfl | rfl <;> rcases BitVec.eq_zero_or_eq_one y with rfl | rfl <;> decide

/-- A select on the conjunction of "`a` is zero" and "`b` is not zero", both as one-bit words, is the `if` on
    the conjunction of the two propositions. -/
theorem select_eq_and_ne {α : Type} (a b : BitVec 32) (A B : α) :
    Scalar.select (IntOp.andi (IntOp.cmpi .eq a 0#32) (IntOp.cmpi .ne b 0#32)) A B
      = if a = 0#32 ∧ b ≠ 0#32 then A else B := by
  have hiff : IntOp.andi (IntOp.cmpi .eq a 0#32) (IntOp.cmpi .ne b 0#32) = 1#1 ↔ a = 0#32 ∧ b ≠ 0#32 := by
    rw [andi_one_iff, cmpi_eq_one_iff, cmpi_ne_one_iff]
  unfold Scalar.select
  by_cases h : a = 0#32 ∧ b ≠ 0#32
  · rw [if_pos h]; exact if_pos (hiff.mpr h)
  · rw [if_neg h]; exact if_neg (fun hh => h (hiff.mp hh))

/-! ## Indices: where each layout operation reads -/

/-- Row `j` of the class-0 column, read through the reshape and the slice, is entry `(j, 0)` of the table. -/
theorem idx_col0 (j : Fin 2000000) :
    Read.idx_main_v7 (Read.idx_main_v8 (ix1 j)) = ix2 j (0 : Fin 21) :=
  funext fun a => Fin.ext (by match a with | ⟨0, _⟩ => exact Nat.div_one _ | ⟨1, _⟩ => rfl)

/-- The one element of the slice `im_labels[0:1]` is entry `0` of `im_labels`. -/
theorem idx_im0 : Read.idx_main_v2 (ix1 (0 : Fin 1)) = ix1 (0 : Fin 21) :=
  funext fun a => Fin.ext (by match a with | ⟨0, _⟩ => rfl)

/-- The reshape of `im_labels[0:1]` to a scalar reads its one element: entry `0` of `im_labels`. -/
theorem im_label0 (x8 : (⟨Cert.ReferenceIdeal.S21, .i32⟩ : BufTy).Contents (Elt Ideal)) (i : S_.Idx) :
    Read.val_main_v3 (F := Ideal) x8 i = x8 (ix1 (0 : Fin 21)) := by
  unfold Read.val_main_v3
  rw [shapeCast_apply (Read.val_main_v2 (F := Ideal) x8) shapeCasts_S1_S_ i (ix1 (0 : Fin 1))
    (by
      rw [Shape.rowMajor_val_one]
      have h1 : (S_.rowMajor i).val < 1 := (S_.rowMajor i).isLt
      show (0 : ℕ) = (S_.rowMajor i).val
      omega),
    Read.val_main_v2_apply, idx_im0]

/-! ## One row of the masked product -/

/-- Row `j` of the masked product: the row's weight times the log of its class-0 probability when the row's label is
    zero and the image-level background label is set, zero otherwise. -/
theorem masked_row (x0 : (⟨Cert.ReferenceIdeal.S2000000x21, .f32⟩ : BufTy).Contents (Elt Ideal)) (x1 : (⟨Cert.ReferenceIdeal.S2000000, .i32⟩ : BufTy).Contents (Elt Ideal)) (x2 : (⟨Cert.ReferenceIdeal.S2000000, .f32⟩ : BufTy).Contents (Elt Ideal)) (x8 : (⟨Cert.ReferenceIdeal.S21, .i32⟩ : BufTy).Contents (Elt Ideal)) (j : Fin 2000000) :
    Read.val_main_v11 (F := Ideal) x0 x1 x2 x8 (ix1 j)
      = if x1 (ix1 j) = 0#32 ∧ x8 (ix1 (0 : Fin 21)) ≠ 0#32 then x2 (ix1 j) * Ideal.log (x0 (ix2 j (0 : Fin 21))) else 0 := by
  rw [Read.val_main_v11_apply, Read.val_main_v6_apply, Read.val_main_v1_apply, Read.val_main_v0_apply,
    Read.val_main_c_apply, Read.val_main_v5_apply, Read.val_main_v4_apply, im_label0, Read.val_main_c_0_apply,
    Read.val_main_v10_apply, Read.val_main_v9_apply, Read.val_main_v8_apply, Read.val_main_v7_apply, idx_col0,
    Read.val_main_call0_v1_apply, Read.val_main_call0_v0_apply, Read.val_main_cst_apply, select_eq_and_ne]
  simp only [Ideal.mulf_def, Ideal.hostUnary_log_def, Ideal.ofBits_def, Ideal.ofBits_zero_f32]

/-! ## The background loss -/

/-- The reference's negated background sum: minus the background sum when the image-level background label is set,
    minus zero when it is not. -/
theorem ref_bg (x0 : (⟨Cert.ReferenceIdeal.S2000000x21, .f32⟩ : BufTy).Contents (Elt Ideal)) (x1 : (⟨Cert.ReferenceIdeal.S2000000, .i32⟩ : BufTy).Contents (Elt Ideal)) (x2 : (⟨Cert.ReferenceIdeal.S2000000, .f32⟩ : BufTy).Contents (Elt Ideal)) (x8 : (⟨Cert.ReferenceIdeal.S21, .i32⟩ : BufTy).Contents (Elt Ideal)) (i : Cert.ReferenceIdeal.S_.Idx) :
    Cert.ReferenceIdeal.Read.val_main_v13 (F := Ideal) x0 x1 x2 x8 i
      = -(if x8 (ix1 (0 : Fin 21)) ≠ 0#32 then Cert.PclSpec.bgSum x0 x1 x2 else 0) := by
  rw [Read.val_main_v13_apply, Read.val_main_v12_apply, Read.val_main_cst_1_apply,
    ← Equiv.sum_comp (idxEquiv1 (n := 2000000)).symm]
  have hrow : ∀ j : Fin 2000000, Read.val_main_v11 (F := Ideal) x0 x1 x2 x8 ((idxEquiv1 (n := 2000000)).symm j)
      = if x1 (ix1 j) = 0#32 ∧ x8 (ix1 (0 : Fin 21)) ≠ 0#32 then x2 (ix1 j) * Ideal.log (x0 (ix2 j (0 : Fin 21))) else 0 :=
    fun j => masked_row x0 x1 x2 x8 j
  rw [Finset.sum_congr rfl (fun j _ => hrow j), Cert.PclSpec.switched_sum x0 x1 x2 (x8 (ix1 (0 : Fin 21)) ≠ 0#32)]
  simp only [Ideal.hostNegf_def, Ideal.negf_def, Ideal.ofBits_def, Ideal.ofBits_zero_f32, zero_add]

/-! ## The run -/

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The term the run states for the result is the last operation's value of the arguments the program reads. -/
theorem ref_result (m' : (ℓ : Loc Cert.ReferenceIdeal.nD Cert.ReferenceIdeal.τ Cert.ReferenceIdeal.sig) → Buf (Elt Ideal) ℓ)
    (c : Dev Cert.ReferenceIdeal.nD) :
    Host.divf (F := Ideal) (addf (Host.negf (Host.reduceAdd (select (andi (cmpi .eq (m' ((c.tc : Thread nD τ).loc main_arg1)) (broadcastInDim S2000000 ![] bcast_S_S2000000 (constantI S_ 32 0#32))) (broadcastInDim S2000000 ![] bcast_S_S2000000 (cmpi .ne (shapeCast _ (extractStridedSlice S1 ![0] (m' ((c.tc : Thread nD τ).loc main_arg8)) slices_S21_S1_0) shapeCasts_S1_S_) (constantI S_ 32 0#32)))) (mulf (m' ((c.tc : Thread nD τ).loc main_arg2)) (Host.log (shapeCast _ (extractStridedSlice S2000000x1 ![0, 0] (m' ((c.tc : Thread nD τ).loc main_arg0)) slices_S2000000x21_S2000000x1_0_0) shapeCasts_S2000000x1_S2000000))) (broadcastInDim S2000000 ![] bcast_S_S2000000 (id (constant S_ .f32 0x00000000#32)))) (constant S_ .f32 0x00000000#32) reducesTo_S2000000_S_d0 h_S_)) (Host.negf (Host.reduceAdd (select (cmpi .ne (Host.gather gather_S21_S4096x1_S4096_n_0_n_n_0_1_1 (m' ((c.tc : Thread nD τ).loc main_arg8)) (broadcastInDim S4096x1 ![0] bcast_S4096_S4096x1_0 (select (cmpi .slt (m' ((c.tc : Thread nD τ).loc main_arg4)) (broadcastInDim S4096 ![] bcast_S_S4096 (constantI S_ 32 0#32))) (addi (m' ((c.tc : Thread nD τ).loc main_arg4)) (broadcastInDim S4096 ![] bcast_S_S4096 (constantI S_ 32 21#32))) (m' ((c.tc : Thread nD τ).loc main_arg4))))) (broadcastInDim S4096 ![] bcast_S_S4096 (constantI S_ 32 0#32))) (mulf (m' ((c.tc : Thread nD τ).loc main_arg7)) (Host.log (m' ((c.tc : Thread nD τ).loc main_arg5)))) (broadcastInDim S4096 ![] bcast_S_S4096 (id (constant S_ .f32 0x00000000#32)))) (constant S_ .f32 0x00000000#32) reducesTo_S4096_S_d0 h_S_))) (constant S_ .f32 0x49F42400#32)
      = Cert.ReferenceIdeal.Read.val_main_v29 (F := Ideal) (m' ((c.tc : Thread nD τ).loc main_arg0)) (m' ((c.tc : Thread nD τ).loc main_arg1)) (m' ((c.tc : Thread nD τ).loc main_arg2)) (m' ((c.tc : Thread nD τ).loc main_arg4)) (m' ((c.tc : Thread nD τ).loc main_arg5)) (m' ((c.tc : Thread nD τ).loc main_arg7)) (m' ((c.tc : Thread nD τ).loc main_arg8)) :=
  Read.val_main_v29_eq _ _ _ _ _ _ _

end Cert.RefSide

end
-- ==== Proof.Tail.lean ====
/-
  The kernel program's host lines after its pallas_call, and their meeting with the reference.

  The region leaves two partial background sums in entries (0,0,0) and (1,0,0) of its result array. The host lines add
  the two, negate the sum, multiply by the image-level switch `im_labels[0] ≠ 0` read as the number one or zero, add the
  foreground loss — the very operations the reference applies to the same four arguments, carried here as one function
  and never opened — and divide by 2,000,000. When the two entries add up to the background sum, the result is the
  reference's: `(-S) · 1 = -S` and `(-S) · 0 = 0 = -0`, which is the reference's switch applied inside its sum.
-/
import proofs.«424507_j10058813407513_4_alg».proof.Proof.Gen.KernelIdeal.Frame
import proofs.«424507_j10058813407513_4_alg».proof.Proof.RefSide
import proofs.«424507_j10058813407513_4_alg».proof.Proof.Spec
import Idealize.ShloMosaic.Lib.StableHlo.Run
import Idealize.ShloMosaic.Lib.ValueIdx
import Idealize.ShloMosaic.Lib.Pipeline.Value

noncomputable section

namespace Cert.KernelIdeal.Tail

open Cert.KernelIdeal Cert.KernelIdeal.Gen Idealize.ShloMosaic Idealize.ShloMosaic.TcCoe Idealize.SL.Sem
  Idealize.ShloMosaic.StableHlo Idealize.ShloMosaic.ValueIdx
open Idealize.ShloMosaic.Pipeline (Dat)

/-! ## The host lines as functions of what they read -/

/-- The background half: minus the sum of the result array's entries (0,0,0) and (1,0,0), times the image-level
    switch `im_labels[0] ≠ 0` read as a number. -/
def kernelBg (out : (⟨S2x8x128, .f32⟩ : BufTy).Contents (Elt Ideal)) (x8 : (⟨S21, .i32⟩ : BufTy).Contents (Elt Ideal)) : (⟨S_, .f32⟩ : BufTy).Contents (Elt Ideal) :=
  mulf (F := Ideal)
    (Host.negf (F := Ideal) (addf (F := Ideal)
      (shapeCast S_ (extractStridedSlice S1x1x1 ![0, 0, 0] out slices_S2x8x128_S1x1x1_0_0_0) shapeCasts_S1x1x1_S_)
      (shapeCast S_ (extractStridedSlice S1x1x1 ![1, 0, 0] out slices_S2x8x128_S1x1x1_1_0_0) shapeCasts_S1x1x1_S_)))
    (uitofp (F := Ideal) .f32 (cmpi .ne (shapeCast S_ (extractStridedSlice S1 ![0] x8 slices_S21_S1_0) shapeCasts_S1_S_) (constantI S_ 32 0#32)))

/-- The foreground half: the per-cluster weighted log-loss, masked by the image-level labels of the clusters'
    classes, summed and negated. -/
def fgLoss (x4 : (⟨S4096, .i32⟩ : BufTy).Contents (Elt Ideal)) (x5 x7 : (⟨S4096, .f32⟩ : BufTy).Contents (Elt Ideal)) (x8 : (⟨S21, .i32⟩ : BufTy).Contents (Elt Ideal)) : (⟨S_, .f32⟩ : BufTy).Contents (Elt Ideal) :=
  Host.negf (F := Ideal) (Host.reduceAdd (F := Ideal) (select (cmpi .ne (Host.gather gather_S21_S4096x1_S4096_n_0_n_n_0_1_1 x8 (broadcastInDim S4096x1 ![0] bcast_S4096_S4096x1_0 (select (cmpi .slt x4 (broadcastInDim S4096 ![] bcast_S_S4096 (constantI S_ 32 0#32))) (addi x4 (broadcastInDim S4096 ![] bcast_S_S4096 (constantI S_ 32 21#32))) x4))) (broadcastInDim S4096 ![] bcast_S_S4096 (constantI S_ 32 0#32))) (mulf (F := Ideal) x7 (Host.log (F := Ideal) x5)) (broadcastInDim S4096 ![] bcast_S_S4096 (id (constant (F := Ideal) S_ .f32 0x00000000#32)))) (constant (F := Ideal) S_ .f32 0x00000000#32) reducesTo_S4096_S_d0 h_S_)

/-- The composed term of the host lines after the region: the two halves added and divided by 2,000,000. -/
def kernelTail (out : (⟨S2x8x128, .f32⟩ : BufTy).Contents (Elt Ideal)) (x4 : (⟨S4096, .i32⟩ : BufTy).Contents (Elt Ideal)) (x5 x7 : (⟨S4096, .f32⟩ : BufTy).Contents (Elt Ideal)) (x8 : (⟨S21, .i32⟩ : BufTy).Contents (Elt Ideal)) : (⟨S_, .f32⟩ : BufTy).Contents (Elt Ideal) :=
  Host.divf (F := Ideal) (addf (F := Ideal) (kernelBg out x8) (fgLoss x4 x5 x7 x8)) (constant (F := Ideal) S_ .f32 0x49F42400#32)

/-! ## What the result buffer holds after the lines -/

/-- After the host lines the result buffer holds their composed term of the region's result array and the four
    arguments the lines read, for any proof data. -/
theorem afterTail_eq (m : (ℓ : Loc nD τ sig) → Buf (Elt Ideal) ℓ)
    (dats : (p : Fin 1) → (c : Dev nD) → Dat τ (Elt Ideal) Unit ℕ (UR sig nD τ) ℕ (cfgs p) c) (c : Dev nD) :
    Pipeline.afterTail₀ cfgs dats 0 (Gen.V0 m) [Gen.hostOps1, Gen.hostOps1_1, Gen.hostOps1_2] c main_v27
      = kernelTail ((dats 0 c).arrAt 3 cfg0.N) (m ((c : Thread nD τ).loc main_arg4)) (m ((c : Thread nD τ).loc main_arg5)) (m ((c : Thread nD τ).loc main_arg7)) (m ((c : Thread nD τ).loc main_arg8)) := by
  unfold Pipeline.afterTail₀
  generalize hW : Pipeline.withArrays _ c _ _ = W
  simp only [Gen.hostOps1, Gen.hostOps1_1, Gen.hostOps1_2, List.flatten_cons, List.flatten_nil, List.append_nil,
    List.cons_append, List.nil_append]
  after_results_simp
  -- the region's result array is window 3's; the four arguments are no window's array and keep their launch contents
  have h0 : W (Proc.devRef .tc main_v0) = (dats 0 c).arrAt 3 cfg0.N := by
    rw [← hW]
    exact Pipeline.withArrays_arr spec0 launch0.win.arr_inj c _ _ 3
  have h4 : W (Proc.devRef .tc main_arg4) = m ((c : Thread nD τ).loc main_arg4) := by
    rw [← hW, Pipeline.withArrays_of_ne _ c (Gen.V0 m c) _ main_arg4 (by exact (by decide : ∀ w, Pipeline.arrRef spec0 w ≠ main_arg4))]
    exact Gen.V_main_arg4 m c
  have h5 : W (Proc.devRef .tc main_arg5) = m ((c : Thread nD τ).loc main_arg5) := by
    rw [← hW, Pipeline.withArrays_of_ne _ c (Gen.V0 m c) _ main_arg5 (by exact (by decide : ∀ w, Pipeline.arrRef spec0 w ≠ main_arg5))]
    exact Gen.V_main_arg5 m c
  have h7 : W (Proc.devRef .tc main_arg7) = m ((c : Thread nD τ).loc main_arg7) := by
    rw [← hW, Pipeline.withArrays_of_ne _ c (Gen.V0 m c) _ main_arg7 (by exact (by decide : ∀ w, Pipeline.arrRef spec0 w ≠ main_arg7))]
    exact Gen.V_main_arg7 m c
  have h8 : W (Proc.devRef .tc main_arg8) = m ((c : Thread nD τ).loc main_arg8) := by
    rw [← hW, Pipeline.withArrays_of_ne _ c (Gen.V0 m c) _ main_arg8 (by exact (by decide : ∀ w, Pipeline.arrRef spec0 w ≠ main_arg8))]
    exact Gen.V_main_arg8 m c
  rw [h0, h4, h5, h7, h8]
  simp only [TRef.ofBuf, TRef.toBuf, cast_eq]
  rfl

/-! ## The background half at its one index -/

/-- A scalar index sits at row-major position zero, as does the one index of a `1 × 1 × 1` array. -/
theorem pos_unit3 (i : S_.Idx) :
    (S1x1x1.rowMajor (ix3 (0 : Fin 1) (0 : Fin 1) (0 : Fin 1))).val = (S_.rowMajor i).val := by
  rw [Shape.rowMajor_val_three]
  have h1 : (S_.rowMajor i).val < 1 := (S_.rowMajor i).isLt
  show ((0 : ℕ) * 1 + 0) * 1 + 0 = (S_.rowMajor i).val
  omega

/-- The one-element slice at (0,0,0) of the result array, reshaped to a scalar, is the array's entry (0,0,0). -/
theorem out_entry0 (out : (⟨S2x8x128, .f32⟩ : BufTy).Contents (Elt Ideal)) (i : S_.Idx) :
    shapeCast S_ (extractStridedSlice S1x1x1 ![0, 0, 0] out slices_S2x8x128_S1x1x1_0_0_0) shapeCasts_S1x1x1_S_ i
      = out (ix3 (0 : Fin 2) (0 : Fin 8) (0 : Fin 128)) := by
  rw [shapeCast_apply _ shapeCasts_S1x1x1_S_ i (ix3 (0 : Fin 1) (0 : Fin 1) (0 : Fin 1)) (pos_unit3 i)]
  exact extractStridedSlice_apply ![0, 0, 0] out slices_S2x8x128_S1x1x1_0_0_0 _ (ix3 (0 : Fin 2) (0 : Fin 8) (0 : Fin 128))
    (fun a => match a with | ⟨0, _⟩ => rfl | ⟨1, _⟩ => rfl | ⟨2, _⟩ => rfl)

/-- The one-element slice at (1,0,0) of the result array, reshaped to a scalar, is the array's entry (1,0,0). -/
theorem out_entry1 (out : (⟨S2x8x128, .f32⟩ : BufTy).Contents (Elt Ideal)) (i : S_.Idx) :
    shapeCast S_ (extractStridedSlice S1x1x1 ![1, 0, 0] out slices_S2x8x128_S1x1x1_1_0_0) shapeCasts_S1x1x1_S_ i
      = out (ix3 (1 : Fin 2) (0 : Fin 8) (0 : Fin 128)) := by
  rw [shapeCast_apply _ shapeCasts_S1x1x1_S_ i (ix3 (0 : Fin 1) (0 : Fin 1) (0 : Fin 1)) (pos_unit3 i)]
  exact extractStridedSlice_apply ![1, 0, 0] out slices_S2x8x128_S1x1x1_1_0_0 _ (ix3 (1 : Fin 2) (0 : Fin 8) (0 : Fin 128))
    (fun a => match a with | ⟨0, _⟩ => rfl | ⟨1, _⟩ => rfl | ⟨2, _⟩ => rfl)

/-- The slice `im_labels[0:1]` reshaped to a scalar is entry `0` of `im_labels`: the reference reads it by the same two
    operations. -/
theorem im_entry0 (x8 : (⟨S21, .i32⟩ : BufTy).Contents (Elt Ideal)) (i : S_.Idx) :
    shapeCast S_ (extractStridedSlice S1 ![0] x8 slices_S21_S1_0) shapeCasts_S1_S_ i = x8 (ix1 (0 : Fin 21)) :=
  Cert.RefSide.im_label0 x8 i

/-- The comparison "not zero" converted to a float is the number one when the word is not zero and zero when it is. -/
theorem uitofp_ne_zero (a : BitVec 32) :
    FloatOps.uitofp (F := Ideal) .f32 (IntOp.cmpi .ne a 0#32) = if a ≠ 0#32 then ((1 : ℝ) : EReal) else ((0 : ℝ) : EReal) := by
  by_cases h : a ≠ 0#32
  · rw [if_pos h, (Cert.RefSide.cmpi_ne_one_iff a 0#32).mpr h]
    show (((1#1 : BitVec 1).toNat : ℝ) : EReal) = ((1 : ℝ) : EReal)
    norm_num
  · rw [if_neg h, eq_zero_of_ne_one (fun hh => h ((Cert.RefSide.cmpi_ne_one_iff a 0#32).mp hh))]
    show (((0#1 : BitVec 1).toNat : ℝ) : EReal) = ((0 : ℝ) : EReal)
    norm_num

/-- The background half at its one index: minus the sum of the two entries, times the switch as a number. -/
theorem kernelBg_apply (out : (⟨S2x8x128, .f32⟩ : BufTy).Contents (Elt Ideal)) (x8 : (⟨S21, .i32⟩ : BufTy).Contents (Elt Ideal)) (i : S_.Idx) :
    kernelBg out x8 i = (-(out (ix3 (0 : Fin 2) (0 : Fin 8) (0 : Fin 128)) + out (ix3 (1 : Fin 2) (0 : Fin 8) (0 : Fin 128)))) * (if x8 (ix1 (0 : Fin 21)) ≠ 0#32 then ((1 : ℝ) : EReal) else ((0 : ℝ) : EReal)) := by
  show (-(shapeCast S_ (extractStridedSlice S1x1x1 ![0, 0, 0] out slices_S2x8x128_S1x1x1_0_0_0) shapeCasts_S1x1x1_S_ i
        + shapeCast S_ (extractStridedSlice S1x1x1 ![1, 0, 0] out slices_S2x8x128_S1x1x1_1_0_0) shapeCasts_S1x1x1_S_ i))
      * FloatOps.uitofp (F := Ideal) .f32 (IntOp.cmpi .ne (shapeCast S_ (extractStridedSlice S1 ![0] x8 slices_S21_S1_0) shapeCasts_S1_S_ i) 0#32) = _
  rw [out_entry0, out_entry1, im_entry0, uitofp_ne_zero]

/-! ## The meeting with the reference -/

/-- The foreground half is the reference's: the same operations on the same four arguments. -/
theorem fgLoss_eq_ref (x4 : (⟨S4096, .i32⟩ : BufTy).Contents (Elt Ideal)) (x5 x7 : (⟨S4096, .f32⟩ : BufTy).Contents (Elt Ideal)) (x8 : (⟨S21, .i32⟩ : BufTy).Contents (Elt Ideal)) :
    fgLoss x4 x5 x7 x8 = Cert.ReferenceIdeal.Read.val_main_v27 (F := Ideal) x4 x5 x7 x8 := rfl

/-- When the result array's entries (0,0,0) and (1,0,0) add up to the background sum, the host lines compute the
    reference's result. -/
theorem kernelTail_eq_ref (out : (⟨S2x8x128, .f32⟩ : BufTy).Contents (Elt Ideal))
    (x0 : (⟨Cert.ReferenceIdeal.S2000000x21, .f32⟩ : BufTy).Contents (Elt Ideal)) (x1 : (⟨Cert.ReferenceIdeal.S2000000, .i32⟩ : BufTy).Contents (Elt Ideal)) (x2 : (⟨Cert.ReferenceIdeal.S2000000, .f32⟩ : BufTy).Contents (Elt Ideal))
    (x4 : (⟨S4096, .i32⟩ : BufTy).Contents (Elt Ideal)) (x5 x7 : (⟨S4096, .f32⟩ : BufTy).Contents (Elt Ideal)) (x8 : (⟨S21, .i32⟩ : BufTy).Contents (Elt Ideal))
    (h : out (ix3 (0 : Fin 2) (0 : Fin 8) (0 : Fin 128)) + out (ix3 (1 : Fin 2) (0 : Fin 8) (0 : Fin 128)) = Cert.PclSpec.bgSum x0 x1 x2) :
    kernelTail out x4 x5 x7 x8 = Cert.ReferenceIdeal.Read.val_main_v29 (F := Ideal) x0 x1 x2 x4 x5 x7 x8 := by
  have hbg : kernelBg out x8 = Cert.ReferenceIdeal.Read.val_main_v13 (F := Ideal) x0 x1 x2 x8 := by
    funext i
    rw [kernelBg_apply, h, Cert.RefSide.ref_bg, Cert.PclSpec.switch_after]
  unfold kernelTail
  rw [hbg, fgLoss_eq_ref]
  rfl

/-- The region's result array as the proof data leave it, seen at its literal type: arithmetic on its entries is
    stated over this name (the proof data's own element type is a projection of the window's, on which no addition is
    found). -/
abbrev outArr (dats : (p : Fin 1) → (c : Dev nD) → Dat τ (Elt Ideal) Unit ℕ (UR sig nD τ) ℕ (cfgs p) c) (c : Dev nD) : (⟨S2x8x128, .f32⟩ : BufTy).Contents (Elt Ideal) :=
  (dats 0 c).arrAt 3 cfg0.N

/-- The two steps as one: when the two entries of the region's result array add up to the background sum, the result
    buffer ends at the reference's result of the launch contents. -/
theorem afterTail_eq_ref (m : (ℓ : Loc nD τ sig) → Buf (Elt Ideal) ℓ) (dats : (p : Fin 1) → (c : Dev nD) → Dat τ (Elt Ideal) Unit ℕ (UR sig nD τ) ℕ (cfgs p) c) (c : Dev nD)
    (x0 : (⟨Cert.ReferenceIdeal.S2000000x21, .f32⟩ : BufTy).Contents (Elt Ideal)) (x1 : (⟨Cert.ReferenceIdeal.S2000000, .i32⟩ : BufTy).Contents (Elt Ideal)) (x2 : (⟨Cert.ReferenceIdeal.S2000000, .f32⟩ : BufTy).Contents (Elt Ideal))
    (h : outArr dats c (ix3 (0 : Fin 2) (0 : Fin 8) (0 : Fin 128)) + outArr dats c (ix3 (1 : Fin 2) (0 : Fin 8) (0 : Fin 128)) = Cert.PclSpec.bgSum x0 x1 x2) :
    Pipeline.afterTail₀ cfgs dats 0 (Gen.V0 m) [Gen.hostOps1, Gen.hostOps1_1, Gen.hostOps1_2] c main_v27
      = Cert.ReferenceIdeal.Read.val_main_v29 (F := Ideal) x0 x1 x2 (m ((c : Thread nD τ).loc main_arg4)) (m ((c : Thread nD τ).loc main_arg5)) (m ((c : Thread nD τ).loc main_arg7)) (m ((c : Thread nD τ).loc main_arg8)) := by
  rw [afterTail_eq]
  exact kernelTail_eq_ref (outArr dats c) x0 x1 x2 _ _ _ _ h

end Cert.KernelIdeal.Tail

end
-- ==== Proof.lean ====
/-
  The proof of `Cert.Claim`: the three frames, the (empty) idealization ledger, and the equivalence over the
  extended reals of the clustered log loss computed by the tiled kernel and by the plain reference.

  Both programs return `(bg + fg) / 2000000`. The foreground term `fg` is the same host computation in both. The
  background term is where they differ in form. The reference negates the sum, over all 2,000,000 rows, of
  `w · log p₀` on the rows whose label is zero, the whole sum switched off when the image has no background label.
  The kernel walks the rows in blocks of 40,960 on a 2 × 25 grid, keeps a running total per row of the grid, masks
  the rows past the arrays' end (and the whole extra step that revisits the last block), returns the two totals in
  a small array, and the host adds them, negates, and multiplies by the switch as a factor 1 or 0. Regrouping a
  finite sum is free on the extended reals, a masked lane contributes `0 · log 1 = 0`, and `(-S) · 0 = 0 = -0` for
  every extended real `S`; so the two background terms are equal, with no appeal to the inputs being finite.

  The kernel's frame (it runs to the end, faults nowhere, leaves its arguments alone) is proved once for both
  instances of the printed program: the body's run on arbitrary staging buffers, the contents of the running total
  and the output tile step by step, and the pipeline's launch.
-/
import proofs.«424507_j10058813407513_4_alg».proof.Defs
import proofs.«424507_j10058813407513_4_alg».proof.Proof.Gen.Kernel
import proofs.«424507_j10058813407513_4_alg».proof.Proof.Gen.KernelIdeal
import proofs.«424507_j10058813407513_4_alg».proof.Proof.Gen.ReferenceIdeal
import proofs.«424507_j10058813407513_4_alg».proof.Proof.Gen.Pre_finite_inputs
import proofs.«424507_j10058813407513_4_alg».proof.Proof.BitsBodyData
import proofs.«424507_j10058813407513_4_alg».proof.Proof.BodyData
import proofs.«424507_j10058813407513_4_alg».proof.Proof.KernelTotal
import proofs.«424507_j10058813407513_4_alg».proof.Proof.Tail
import proofs.«424507_j10058813407513_4_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program's frame. -/
theorem frame_k : Cert.frame_Kernel (hKernel := Cert.Kernel.Gen.facts) (hPre_finite_inputs := Cert.Pre_finite_inputs.Gen.facts) :=
  fun m ρ _ => Cert.Kernel.Body.frame m ρ

/-- The idealized kernel program's frame: the same proof at the other instance. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The two programs end with equal results: the kernel's run leaves its result at the host lines after the region
    applied to the region's result array, whose two totals add up to the background sum; the reference's run leaves
    its result at its composed term; the two terms are equal once the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Tail.kernelTail ((Cert.KernelIdeal.Body.dats (F := Ideal) m 0 c).arrAt 3 Cert.KernelIdeal.cfg0.N)
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨?_, ?_⟩) (Cert.KernelIdeal.Body.run_main (F := Ideal) m ρ)
    · exact ((h c).2 Cert.KernelIdeal.main_v27 (Pipeline.mem_restRefs_of Cert.KernelIdeal.main_v27 (by decide) (by decide))).trans
        (Cert.KernelIdeal.Tail.afterTail_eq m (Cert.KernelIdeal.Body.dats (F := Ideal) m) c)
    · exact ⟨((h c).1 0).trans (((Cert.KernelIdeal.Body.dats (F := Ideal) m 0 c).arrAt_in 0 rfl _).trans ((Cert.KernelIdeal.Body.A_eq m c 0).trans (Cert.KernelIdeal.Gen.V_main_arg0 m c))),
        ((h c).1 1).trans (((Cert.KernelIdeal.Body.dats (F := Ideal) m 0 c).arrAt_in 1 rfl _).trans ((Cert.KernelIdeal.Body.A_eq m c 1).trans (Cert.KernelIdeal.Gen.V_main_arg1 m c))),
        ((h c).1 2).trans (((Cert.KernelIdeal.Body.dats (F := Ideal) m 0 c).arrAt_in 2 rfl _).trans ((Cert.KernelIdeal.Body.A_eq m c 2).trans (Cert.KernelIdeal.Gen.V_main_arg2 m c))),
        (((h c).2 Cert.KernelIdeal.main_arg3 (Pipeline.mem_restRefs_of Cert.KernelIdeal.main_arg3 (by decide) (by decide))).trans (Cert.KernelIdeal.Gen.W_main_arg3 m (Cert.KernelIdeal.Body.dats (F := Ideal) m) c)),
        (((h c).2 Cert.KernelIdeal.main_arg4 (Pipeline.mem_restRefs_of Cert.KernelIdeal.main_arg4 (by decide) (by decide))).trans (Cert.KernelIdeal.Gen.W_main_arg4 m (Cert.KernelIdeal.Body.dats (F := Ideal) m) c)),
        (((h c).2 Cert.KernelIdeal.main_arg5 (Pipeline.mem_restRefs_of Cert.KernelIdeal.main_arg5 (by decide) (by decide))).trans (Cert.KernelIdeal.Gen.W_main_arg5 m (Cert.KernelIdeal.Body.dats (F := Ideal) m) c)),
        (((h c).2 Cert.KernelIdeal.main_arg6 (Pipeline.mem_restRefs_of Cert.KernelIdeal.main_arg6 (by decide) (by decide))).trans (Cert.KernelIdeal.Gen.W_main_arg6 m (Cert.KernelIdeal.Body.dats (F := Ideal) m) c)),
        (((h c).2 Cert.KernelIdeal.main_arg7 (Pipeline.mem_restRefs_of Cert.KernelIdeal.main_arg7 (by decide) (by decide))).trans (Cert.KernelIdeal.Gen.W_main_arg7 m (Cert.KernelIdeal.Body.dats (F := Ideal) m) c)),
        (((h c).2 Cert.KernelIdeal.main_arg8 (Pipeline.mem_restRefs_of Cert.KernelIdeal.main_arg8 (by decide) (by decide))).trans (Cert.KernelIdeal.Gen.W_main_arg8 m (Cert.KernelIdeal.Body.dats (F := Ideal) m) c))⟩
  · refine (θ_run Cert.ReferenceIdeal.defs _ _).mono (fun r h c => ⟨?_, (h c).2⟩)
      (Cert.ReferenceIdeal.Value.run (F := Ideal) m' ρ')
    rw [(h c).1, Cert.RefSide.ref_result]
    obtain ⟨h0, h1, h2, -, h4, h5, -, h7, h8⟩ := hagree c
    rw [h0, h1, h2, h4, h5, h7, h8]
    exact (Cert.KernelIdeal.Tail.kernelTail_eq_ref _ _ _ _ _ _ _ _ (Cert.KernelIdeal.Total.region_result m c)).symm

theorem claim : Cert.Claim :=
  ⟨Cert.Kernel.Gen.facts, Cert.KernelIdeal.Gen.facts, Cert.ReferenceIdeal.Gen.facts, Cert.Pre_finite_inputs.Gen.facts,
    frame_k, frame_ki, Cert.RefSide.frame_ri, trivial, algebraic⟩

end Cert.Proof

end
